-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S128x8192 : Shape := ⟨2, ![128, 8192]⟩
abbrev S128x1 : Shape := ⟨2, ![128, 1]⟩
abbrev S1x8192 : Shape := ⟨2, ![1, 8192]⟩
abbrev S128 : Shape := ⟨1, ![128]⟩
abbrev S8192x128 : Shape := ⟨2, ![8192, 128]⟩
abbrev S1x128 : Shape := ⟨2, ![1, 128]⟩

abbrev nBuf : Space → Nat
  | .hbm => 11
  | .vmem => 40
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S128x8192, .f32⟩
  | .local _ .vmem, ⟨9, _⟩ => ⟨S128x8192, .f32⟩
  | .local _ .vmem, ⟨10, _⟩ => ⟨S128x8192, .f32⟩
  | .local _ .vmem, ⟨11, _⟩ => ⟨S128x8192, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S128x8192, .f32⟩
  | .local _ .vmem, ⟨17, _⟩ => ⟨S128x8192, .f32⟩
  | .local _ .vmem, ⟨18, _⟩ => ⟨S128x8192, .f32⟩
  | .local _ .vmem, ⟨19, _⟩ => ⟨S128x8192, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S128x8192, .f32⟩
  | .local _ .vmem, ⟨25, _⟩ => ⟨S128x8192, .f32⟩
  | .local _ .vmem, ⟨26, _⟩ => ⟨S128x8192, .f32⟩
  | .local _ .vmem, ⟨27, _⟩ => ⟨S128x8192, .f32⟩
  | .local _ .vmem, ⟨28, _⟩ => ⟨S8192x128, .f32⟩
  | .local _ .vmem, ⟨29, _⟩ => ⟨S8192x128, .f32⟩
  | .local _ .vmem, ⟨30, _⟩ => ⟨S8192x128, .f32⟩
  | .local _ .vmem, ⟨31, _⟩ => ⟨S8192x128, .f32⟩
  | .local _ .vmem, ⟨32, _⟩ => ⟨S128x8192, .f32⟩
  | .local _ .vmem, ⟨33, _⟩ => ⟨S128x8192, .f32⟩
  | .local _ .vmem, ⟨34, _⟩ => ⟨S128x8192, .f32⟩
  | .local _ .vmem, ⟨35, _⟩ => ⟨S128x8192, .f32⟩
  | .local _ .vmem, ⟨36, _⟩ => ⟨S8192x128, .f32⟩
  | .local _ .vmem, ⟨37, _⟩ => ⟨S8192x128, .f32⟩
  | .local _ .vmem, ⟨38, _⟩ => ⟨S8192x128, .f32⟩
  | .local _ .vmem, ⟨39, _⟩ => ⟨S8192x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc8_stg0_0 : Ref sig .tc := ⟨.vmem, 32, rfl⟩
abbrev cc8_stg0_1 : Ref sig .tc := ⟨.vmem, 33, rfl⟩
abbrev cc8_stg1_0 : Ref sig .tc := ⟨.vmem, 34, rfl⟩
abbrev cc8_stg1_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31
abbrev cc8_sem0_0 : DmaSem sig := 32
abbrev cc8_sem0_1 : DmaSem sig := 33
abbrev cc8_sem1_0 : DmaSem sig := 34
abbrev cc8_sem1_1 : DmaSem sig := 35
abbrev cc9_sem0_0 : DmaSem sig := 36
abbrev cc9_sem0_1 : DmaSem sig := 37
abbrev cc9_sem1_0 : DmaSem sig := 38
abbrev cc9_sem1_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x8192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x8192 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S8192x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x8192 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x8192 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage9_0 : Fin 2 → Memref sig .tc .vmem S8192x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8192x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

class Facts₀ : Prop where
  iota_S128x1_d0_w32 : S128x1.Iotas .tc 32 [0]
  iota_S1x8192_d1_w32 : S1x8192.Iotas .tc 32 [1]
  broadcasts_S128x1_S128x8192 : S128x1.Broadcasts S128x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  broadcasts_S1x128_S8192x128 : S1x128.Broadcasts S8192x128
  shapeCasts_S128x8192_S128x8192 : S128x8192.ShapeCasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x8192.size a
  hwx1_0 : ∀ i : grid1.Coords, EltTy.bits .f32 = 32 ∨ (Rect.block (s := S8192x8192) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x8192.size a
  hwx1_1 : ∀ i : grid1.Coords, EltTy.bits .f32 = 32 ∨ (Rect.block (s := S8192x8192) S8192x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8192.size a ≤ S8192x8192.size a
  hwx2_0 : ∀ i : grid2.Coords, EltTy.bits .f32 = 32 ∨ (Rect.block (s := S8192x8192) S128x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x8192.size a ≤ S8192x8192.size a
  hwx2_1 : ∀ i : grid2.Coords, EltTy.bits .f32 = 32 ∨ (Rect.block (s := S8192x8192) S128x8192.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S8192x8192.size a
  hwx3_0 : ∀ i : grid3.Coords, EltTy.bits .f32 = 32 ∨ (Rect.block (s := S8192x8192) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x8192.size a
  hwx3_1 : ∀ i : grid3.Coords, EltTy.bits .f32 = 32 ∨ (Rect.block (s := S8192x8192) S8192x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x8192.size a ≤ S8192x8192.size a
  hwx4_0 : ∀ i : grid4.Coords, EltTy.bits .f32 = 32 ∨ (Rect.block (s := S8192x8192) S128x8192.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x8192.size a ≤ S8192x8192.size a
  hwx4_1 : ∀ i : grid4.Coords, EltTy.bits .f32 = 32 ∨ (Rect.block (s := S8192x8192) S128x8192.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S8192x8192.size a
  hwx5_0 : ∀ i : grid5.Coords, EltTy.bits .f32 = 32 ∨ (Rect.block (s := S8192x8192) S8192x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x128.size a ≤ S8192x8192.size a
  hwx5_1 : ∀ i : grid5.Coords, EltTy.bits .f32 = 32 ∨ (Rect.block (s := S8192x8192) S8192x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x8192.size a ≤ S8192x8192.size a
  hwx6_0 : ∀ i : grid6.Coords, EltTy.bits .f32 = 32 ∨ (Rect.block (s := S8192x8192) S128x8192.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S128x8192.size a ≤ S8192x8192.size a
  hwx6_1 : ∀ i : grid6.Coords, EltTy.bits .f32 = 32 ∨ (Rect.block (s := S8192x8192) S128x8192.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x128.size a ≤ S8192x8192.size a
  hwx7_0 : ∀ i : grid7.Coords, EltTy.bits .f32 = 32 ∨ (Rect.block (s := S8192x8192) S8192x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8192x128.size a ≤ S8192x8192.size a
  hwx7_1 : ∀ i : grid7.Coords, EltTy.bits .f32 = 32 ∨ (Rect.block (s := S8192x8192) S8192x128.size (cc7_transform_1 i) (hinb7_1 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S128x8192.size a ≤ S8192x8192.size a
  hwx8_0 : ∀ i : grid8.Coords, EltTy.bits .f32 = 32 ∨ (Rect.block (s := S8192x8192) S128x8192.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S128x8192.size a ≤ S8192x8192.size a
  hwx8_1 : ∀ i : grid8.Coords, EltTy.bits .f32 = 32 ∨ (Rect.block (s := S8192x8192) S128x8192.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x128.size a ≤ S8192x8192.size a
  hwx9_0 : ∀ i : grid9.Coords, EltTy.bits .f32 = 32 ∨ (Rect.block (s := S8192x8192) S8192x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8192x128.size a ≤ S8192x8192.size a
  hwx9_1 : ∀ i : grid9.Coords, EltTy.bits .f32 = 32 ∨ (Rect.block (s := S8192x8192) S8192x128.size (cc9_transform_1 i) (hinb9_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x8192.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v2) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S8192x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v3) S128x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S128x8192.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v4) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S8192x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v5) S128x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S128x8192.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v6) S8192x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S8192x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v7) S128x8192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v8) S128x8192.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v8) S8192x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v9) S8192x128.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 97
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S1x8192, .f32⟩
  | .hbm, ⟨28, _⟩ => ⟨S_, .f32⟩
  | .hbm, ⟨29, _⟩ => ⟨S1x8192, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S1x8192, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S1x8192, .f32⟩
  | .hbm, ⟨60, _⟩ => ⟨S_, .f32⟩
  | .hbm, ⟨61, _⟩ => ⟨S1x8192, .f32⟩
  | .hbm, ⟨62, _⟩ => ⟨S1x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192, .f32⟩
  | .hbm, ⟨75, _⟩ => ⟨S1x8192, .f32⟩
  | .hbm, ⟨76, _⟩ => ⟨S_, .f32⟩
  | .hbm, ⟨77, _⟩ => ⟨S1x8192, .f32⟩
  | .hbm, ⟨78, _⟩ => ⟨S1x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S8192, .f32⟩
  | .hbm, ⟨91, _⟩ => ⟨S1x8192, .f32⟩
  | .hbm, ⟨92, _⟩ => ⟨S_, .f32⟩
  | .hbm, ⟨93, _⟩ => ⟨S1x8192, .f32⟩
  | .hbm, ⟨94, _⟩ => ⟨S1x8192, .f32⟩
  | .hbm, ⟨95, _⟩ => ⟨S8192x8192, .f32⟩
  | .hbm, ⟨96, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_15 : Ref sig .tc := ⟨.hbm, 73, rfl⟩
abbrev main_v55 : Ref sig .tc := ⟨.hbm, 74, rfl⟩
abbrev main_v56 : Ref sig .tc := ⟨.hbm, 75, rfl⟩
abbrev main_cst_16 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩
abbrev main_cst_18 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_19 : Ref sig .tc := ⟨.hbm, 89, rfl⟩
abbrev main_v67 : Ref sig .tc := ⟨.hbm, 90, rfl⟩
abbrev main_v68 : Ref sig .tc := ⟨.hbm, 91, rfl⟩
abbrev main_cst_20 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  reducesTo_S8192x8192_S8192_d0 : S8192x8192.ReducesTo [0] S8192
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.Spec.lean ====
/-
  The Sinkhorn mixer as one function of the logits, entry by entry, on the extended reals.

  Start from M₀ = σ(x) + I, where σ is the logistic function 1 / (1 + e^(-x)) applied entry by entry and I is the
  identity matrix. One ROW normalisation divides every entry by its row's sum plus ε; one COLUMN normalisation divides
  every entry by its column's sum plus ε. The mixer is five rounds of a row normalisation followed by a column
  normalisation. ε is the single-precision number nearest 10⁻⁶, kept as its bit pattern: both programs carry the same
  pattern, so its value never matters.

  Nothing here uses that an entry is finite: a quotient and a finite sum are defined at every extended real, and the two
  programs are compared term by term, never through an algebraic law.
-/
import Idealize.ShloMosaic.Lib.ValueIdx
import Idealize.ShloMosaic.Lib.IdealHost
import Idealize.ShloMosaic.PureOps.Ideal.Laws

noncomputable section

namespace Cert.Sinkhorn

open Idealize.ShloMosaic Idealize.ShloMosaic.ValueIdx

/-- The 8192 × 8192 matrices the mixer works on. -/
abbrev Mat : Shape := ⟨2, ![8192, 8192]⟩

/-- ε, by its single-precision bit pattern. -/
def eps : EReal := Ideal.ofBits .f32 0x358637BD#32

/-- Entry (p, q) of the identity matrix. -/
def eye (p q : ℕ) : EReal := if p = q then 1 else 0

/-- The sum of row `p`. -/
def rowSum (x : FVec Ideal Mat .f32) (p : Fin 8192) : EReal := ∑ k : Fin 8192, x (ix2 p k)

/-- The sum of column `q`. -/
def colSum (x : FVec Ideal Mat .f32) (q : Fin 8192) : EReal := ∑ k : Fin 8192, x (ix2 k q)

/-- M₀ = σ(x) + I. -/
def initM (x : FVec Ideal Mat .f32) : FVec Ideal Mat .f32 :=
  fun i => Ideal.logistic (x i) + eye (i 0).val (i 1).val

/-- Every entry over its row's sum plus ε. -/
def rowNorm (x : FVec Ideal Mat .f32) : FVec Ideal Mat .f32 :=
  fun i => Ideal.div (x i) (rowSum x (i 0) + eps)

/-- Every entry over its column's sum plus ε. -/
def colNorm (x : FVec Ideal Mat .f32) : FVec Ideal Mat .f32 :=
  fun i => Ideal.div (x i) (colSum x (i 1) + eps)

theorem initM_apply (x : FVec Ideal Mat .f32) (p q : Fin 8192) :
    initM x (ix2 p q) = Ideal.logistic (x (ix2 p q)) + eye p.val q.val := rfl

theorem rowNorm_apply (x : FVec Ideal Mat .f32) (p q : Fin 8192) :
    rowNorm x (ix2 p q) = Ideal.div (x (ix2 p q)) (rowSum x p + eps) := rfl

theorem colNorm_apply (x : FVec Ideal Mat .f32) (p q : Fin 8192) :
    colNorm x (ix2 p q) = Ideal.div (x (ix2 p q)) (colSum x q + eps) := rfl

/-- One round: a row normalisation, then a column normalisation. -/
def round (x : FVec Ideal Mat .f32) : FVec Ideal Mat .f32 := colNorm (rowNorm x)

/-- The mixer: five rounds from M₀. -/
def mixer (x : FVec Ideal Mat .f32) : FVec Ideal Mat .f32 := round (round (round (round (round (initM x)))))

end Cert.Sinkhorn

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.LibNormForms.lean ====
/-
  A normalisation along one axis of a matrix, read at an entry, in the two spellings that compute it.

  To divide every entry of an [a, b] matrix by its row's sum plus a constant, a vector unit sums the matrix along
  axis 1 into a vector of length a, casts it to a column [a, 1], adds the constant's splat, broadcasts the column
  over the b columns and divides; a host program reduces along axis 1 from the initial value zero, broadcasts the
  vector to a column [a, 1], adds the constant's broadcast, broadcasts the column to [a, b] and divides. Dividing by
  the column's sum is the same with the axes exchanged and a row [1, b] in place of the column. Read at the entry
  (p, q) on the extended reals, all four are the entry over (the sum along its row or column, plus the constant):
  a sum of extended reals does not depend on how it is spelt, the host's initial zero adds nothing, and the layout
  steps only choose which entry is read.

  Also here: the logistic function as a host program spells it, 1 / (1 + e^(-x)), is the vector unit's logistic; and
  the identity matrix's entry as each side spells it (a select on a word comparison of the two coordinates in a vector
  unit, a conversion of the comparison bit on the host) is 1 on the diagonal and 0 off it.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«157975_j85298050498979_1_alg».proof.Proof.LibColumnForms

noncomputable section

namespace Idealize.ShloMosaic.NormForms

open Idealize.ShloMosaic Idealize.ShloMosaic.ValueIdx

variable {a b : ℕ}

/-! ## The index a one-axis reduction reads -/

/-- Summing along axis 1: the entry of row `p` at the summed coordinate `k`. -/
theorem lift_axis1 (h : (⟨2, ![a, b]⟩ : Shape).Reduces [(1 : Fin 2)] ⟨1, ![a]⟩) (p : Fin a) (k : Fin b) :
    h.lift (ix1 p) k = ix2 p k := by
  funext d
  match d with
  | ⟨0, _⟩ => exact Fin.ext rfl
  | ⟨1, _⟩ => exact Fin.ext rfl

/-- Summing along axis 0: the entry of column `q` at the summed coordinate `k`. -/
theorem lift_axis0 (h : (⟨2, ![a, b]⟩ : Shape).Reduces [(0 : Fin 2)] ⟨1, ![b]⟩) (q : Fin b) (k : Fin a) :
    h.lift (ix1 q) k = ix2 k q := by
  funext d
  match d with
  | ⟨0, _⟩ => exact Fin.ext rfl
  | ⟨1, _⟩ => exact Fin.ext rfl

/-! ## The vector unit's sums -/

theorem multiReduction_axis1_apply (x : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ x 0x00000000#32 h hφ hacc (ix1 p) = ∑ k : Fin b, x (ix2 p k) := by
  rw [Ideal.multiReduction_add_single]
  exact Finset.sum_congr rfl fun k _ => congrArg x (lift_axis1 h p k)

theorem multiReduction_axis0_apply (x : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = FKind.add.neutral .f32 hφ) (q : Fin b) :
    multiReduction .add [(0 : Fin 2)] ⟨1, ![b]⟩ x 0x00000000#32 h hφ hacc (ix1 q) = ∑ k : Fin a, x (ix2 k q) := by
  rw [Ideal.multiReduction_add_single]
  exact Finset.sum_congr rfl fun k _ => congrArg x (lift_axis0 h q k)

/-! ## The vector unit's normalisations of a block -/

/-- Every entry over its row's sum plus the constant, as a vector unit computes it. -/
theorem kernelRow_apply (x : FVec Ideal ⟨2, ![a, b]⟩ .f32) (e : BitVec 32)
    (hred : (⟨2, ![a, b]⟩ : Shape).Reduces [(1 : Fin 2)] ⟨1, ![a]⟩) (hφ : FKind.Formats .f32)
    (hacc : (0x00000000#32 : BitVec 32) = FKind.add.neutral .f32 hφ)
    (hsc : (⟨1, ![a]⟩ : Shape).ShapeCasts ⟨2, ![a, 1]⟩) (hbc : (⟨2, ![a, 1]⟩ : Shape).Broadcasts ⟨2, ![a, b]⟩)
    (p : Fin a) (q : Fin b) :
    divf x (broadcastTo ⟨2, ![a, b]⟩
        (addf (shapeCast ⟨2, ![a, 1]⟩ (multiReduction .add [(1 : Fin 2)] ⟨1, ![a]⟩ x 0x00000000#32 hred hφ hacc) hsc)
          (broadcast ⟨2, ![a, 1]⟩ (Scalar.ofBits .f32 e))) hbc) (ix2 p q)
      = Ideal.div (x (ix2 p q)) ((∑ k : Fin b, x (ix2 p k)) + Ideal.ofBits .f32 e) := by
  rw [divf_apply, ColumnForms.broadcastTo_a1_ac_apply, addf_apply, ColumnForms.shapeCast_a_a1_apply,
    multiReduction_axis1_apply]
  rfl

/-- Every entry over its column's sum plus the constant, as a vector unit computes it. -/
theorem kernelCol_apply (x : FVec Ideal ⟨2, ![a, b]⟩ .f32) (e : BitVec 32)
    (hred : (⟨2, ![a, b]⟩ : Shape).Reduces [(0 : Fin 2)] ⟨1, ![b]⟩) (hφ : FKind.Formats .f32)
    (hacc : (0x00000000#32 : BitVec 32) = FKind.add.neutral .f32 hφ)
    (hsc : (⟨1, ![b]⟩ : Shape).ShapeCasts ⟨2, ![1, b]⟩) (hbc : (⟨2, ![1, b]⟩ : Shape).Broadcasts ⟨2, ![a, b]⟩)
    (p : Fin a) (q : Fin b) :
    divf x (broadcastTo ⟨2, ![a, b]⟩
        (addf (shapeCast ⟨2, ![1, b]⟩ (multiReduction .add [(0 : Fin 2)] ⟨1, ![b]⟩ x 0x00000000#32 hred hφ hacc) hsc)
          (broadcast ⟨2, ![1, b]⟩ (Scalar.ofBits .f32 e))) hbc) (ix2 p q)
      = Ideal.div (x (ix2 p q)) ((∑ k : Fin a, x (ix2 k q)) + Ideal.ofBits .f32 e) := by
  rw [divf_apply, broadcastTo_1b_ab_apply, addf_apply, shapeCast_a_1a_apply, multiReduction_axis0_apply]
  rfl

/-! ## The host's broadcasts of a vector to a column or a row, and of those over the matrix -/

/-- A vector of length `a` broadcast to the column [a, 1] along axis 0 reads, at (p, 0), its entry `p`. -/
theorem bcast_vec_col_apply {α : Type} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column [a, 1] broadcast to [a, b] reads, at (p, q), the column's entry (p, 0). -/
theorem bcast_col_apply {α : Type} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A vector of length `b` broadcast to the row [1, b] along axis 1 reads, at (0, q), its entry `q`. -/
theorem bcast_vec_row_apply {α : Type} (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- A row [1, b] broadcast to [a, b] reads, at (p, q), the row's entry (0, q). -/
theorem bcast_row_apply {α : Type} (h : (⟨2, ![1, b]⟩ : Shape).BroadcastsInDim ⟨2, ![a, b]⟩ ![0, 1])
    (v : (⟨2, ![1, b]⟩ : Shape).Idx → α) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-! ## The host's sums from the initial value zero -/

theorem hostReduceAdd_axis1_apply (x : FVec Ideal ⟨2, ![a, b]⟩ .f32)
    (h' : (⟨2, ![a, b]⟩ : Shape).ReducesTo [(1 : Fin 2)] ⟨1, ![a]⟩) (hu : 0 < (⟨0, ![]⟩ : Shape).numel) (p : Fin a) :
    Host.reduceAdd x (constant ⟨0, ![]⟩ .f32 0x00000000#32) h' hu (ix1 p) = ∑ k : Fin b, x (ix2 p k) := by
  have h : (⟨2, ![a, b]⟩ : Shape).Reduces [(1 : Fin 2)] ⟨1, ![a]⟩ := h'.elim fun h1 h2 => ⟨h1, Nat.one_pos, h2⟩
  rw [hostReduceAdd_apply, Ideal.hostReduceAdd_single h' h, constant_apply, Ideal.ofBits_zero_f32, zero_add]
  exact Finset.sum_congr rfl fun k _ => congrArg x (lift_axis1 h p k)

theorem hostReduceAdd_axis0_apply (x : FVec Ideal ⟨2, ![a, b]⟩ .f32)
    (h' : (⟨2, ![a, b]⟩ : Shape).ReducesTo [(0 : Fin 2)] ⟨1, ![b]⟩) (hu : 0 < (⟨0, ![]⟩ : Shape).numel) (q : Fin b) :
    Host.reduceAdd x (constant ⟨0, ![]⟩ .f32 0x00000000#32) h' hu (ix1 q) = ∑ k : Fin a, x (ix2 k q) := by
  have h : (⟨2, ![a, b]⟩ : Shape).Reduces [(0 : Fin 2)] ⟨1, ![b]⟩ := h'.elim fun h1 h2 => ⟨h1, Nat.one_pos, h2⟩
  rw [hostReduceAdd_apply, Ideal.hostReduceAdd_single h' h, constant_apply, Ideal.ofBits_zero_f32, zero_add]
  exact Finset.sum_congr rfl fun k _ => congrArg x (lift_axis0 h q k)

/-! ## The host's normalisations of the whole matrix -/

/-- Every entry over its row's sum plus the constant, as a host program computes it. -/
theorem hostRow_apply (x : FVec Ideal ⟨2, ![a, b]⟩ .f32) (e : BitVec 32)
    (h' : (⟨2, ![a, b]⟩ : Shape).ReducesTo [(1 : Fin 2)] ⟨1, ![a]⟩) (hu : 0 < (⟨0, ![]⟩ : Shape).numel)
    (hb1 : (⟨1, ![a]⟩ : Shape).BroadcastsInDim ⟨2, ![a, 1]⟩ ![0])
    (hb0 : (⟨0, ![]⟩ : Shape).BroadcastsInDim ⟨2, ![a, 1]⟩ ![])
    (hb2 : (⟨2, ![a, 1]⟩ : Shape).BroadcastsInDim ⟨2, ![a, b]⟩ ![0, 1]) (p : Fin a) (q : Fin b) :
    Host.divf x (broadcastInDim ⟨2, ![a, b]⟩ ![0, 1] hb2
        (addf (broadcastInDim ⟨2, ![a, 1]⟩ ![0] hb1 (Host.reduceAdd x (constant ⟨0, ![]⟩ .f32 0x00000000#32) h' hu))
          (broadcastInDim ⟨2, ![a, 1]⟩ ![] hb0 (constant ⟨0, ![]⟩ .f32 e)))) (ix2 p q)
      = Ideal.div (x (ix2 p q)) ((∑ k : Fin b, x (ix2 p k)) + Ideal.ofBits .f32 e) := by
  rw [hostDivf_apply, bcast_col_apply, addf_apply, bcast_vec_col_apply, broadcastInDim_scalar_apply,
    hostReduceAdd_axis1_apply, constant_apply]

/-- Every entry over its column's sum plus the constant, as a host program computes it. -/
theorem hostCol_apply (x : FVec Ideal ⟨2, ![a, b]⟩ .f32) (e : BitVec 32)
    (h' : (⟨2, ![a, b]⟩ : Shape).ReducesTo [(0 : Fin 2)] ⟨1, ![b]⟩) (hu : 0 < (⟨0, ![]⟩ : Shape).numel)
    (hb1 : (⟨1, ![b]⟩ : Shape).BroadcastsInDim ⟨2, ![1, b]⟩ ![1])
    (hb0 : (⟨0, ![]⟩ : Shape).BroadcastsInDim ⟨2, ![1, b]⟩ ![])
    (hb2 : (⟨2, ![1, b]⟩ : Shape).BroadcastsInDim ⟨2, ![a, b]⟩ ![0, 1]) (p : Fin a) (q : Fin b) :
    Host.divf x (broadcastInDim ⟨2, ![a, b]⟩ ![0, 1] hb2
        (addf (broadcastInDim ⟨2, ![1, b]⟩ ![1] hb1 (Host.reduceAdd x (constant ⟨0, ![]⟩ .f32 0x00000000#32) h' hu))
          (broadcastInDim ⟨2, ![1, b]⟩ ![] hb0 (constant ⟨0, ![]⟩ .f32 e)))) (ix2 p q)
      = Ideal.div (x (ix2 p q)) ((∑ k : Fin a, x (ix2 k q)) + Ideal.ofBits .f32 e) := by
  rw [hostDivf_apply, bcast_row_apply, addf_apply, bcast_vec_row_apply, broadcastInDim_scalar_apply,
    hostReduceAdd_axis0_apply, constant_apply]

end Idealize.ShloMosaic.NormForms

end
-- ==== Proof.InitForms.lean ====
/-
  The starting matrix M₀ = σ(x) + I, entry by entry, in the two spellings that compute it.

  A vector unit working on the block of rows 128·t … 128·t + 127 builds the identity's entries by comparing, as 32-bit
  words, the row number 128·t + p (a row iota plus the block's first row) with the column number q (a column iota), and
  selecting 1 or 0; it adds the logistic of the block. A host program compares a row iota (plus a zero word) with a
  column iota over the whole matrix, converts the comparison bit to a float, and adds it to 1 / (1 + e^(-x)). Row and
  column numbers are below 2³², so equal words mean equal numbers; the logistic function is by definition
  1 / (1 + e^(-x)) on the extended reals. Both are σ(x) at the entry plus 1 on the diagonal and 0 off it.
-/
import proofs.«157975_j85298050498979_1_alg».proof.Proof.Spec
import proofs.«157975_j85298050498979_1_alg».proof.Proof.LibNormForms

noncomputable section

namespace Cert.Sinkhorn

open Idealize.ShloMosaic Idealize.ShloMosaic.ValueIdx Idealize.ShloMosaic.NormForms

/-! ## Words -/

/-- Two numbers below 2³² are equal exactly when their 32-bit words are. -/
theorem cmpi_eq_ofNat (n q : ℕ) (hn : n < 2 ^ 32) (hq : q < 2 ^ 32) :
    IntOp.cmpi .eq (BitVec.ofNat 32 n) (BitVec.ofNat 32 q) = if n = q then 1#1 else 0#1 := by
  unfold IntOp.cmpi
  by_cases h : n = q
  · subst h; simp
  · rw [if_neg h]
    have hne : BitVec.ofNat 32 n ≠ BitVec.ofNat 32 q := by
      intro e
      have := congrArg BitVec.toNat e
      rw [BitVec.toNat_ofNat, BitVec.toNat_ofNat, Nat.mod_eq_of_lt hn, Nat.mod_eq_of_lt hq] at this
      exact h this
    have hb : (BitVec.ofNat 32 n == BitVec.ofNat 32 q) = false := beq_eq_false_iff_ne.mpr hne
    rw [hb]; rfl

/-- The word of row `p` of the block that starts at row `128·t`. -/
theorem rowWord (t p : ℕ) :
    IntOp.addi (BitVec.ofNat 32 p) (Scalar.muli (BitVec.ofNat 32 t) 128#32) = BitVec.ofNat 32 (t * 128 + p) := by
  unfold IntOp.addi Scalar.muli IntOp.muli
  rw [show (128#32 : BitVec 32) = BitVec.ofNat 32 128 from rfl, ← BitVec.ofNat_mul, ← BitVec.ofNat_add, Nat.add_comm]

theorem addZeroWord (p : ℕ) : IntOp.addi (BitVec.ofNat 32 p) 0#32 = BitVec.ofNat 32 p := by
  unfold IntOp.addi; simp

/-- Selecting 1 or 0 by a comparison bit is the identity's entry. -/
theorem select_eye (n q : ℕ) :
    Scalar.select (if n = q then 1#1 else 0#1) (Ideal.ofBits .f32 0x3F800000#32) (Ideal.ofBits .f32 0x00000000#32)
      = eye n q := by
  unfold eye
  by_cases h : n = q
  · rw [if_pos h, if_pos h, select_one, Ideal.ofBits_one_f32]
  · rw [if_neg h, if_neg h, select_zero, Ideal.ofBits_zero_f32]

/-- Converting a comparison bit to a float is the identity's entry. -/
theorem uitofp_eye (n q : ℕ) :
    FloatOps.uitofp (F := Ideal) .f32 (if n = q then 1#1 else 0#1 : BitVec 1) = eye n q := by
  unfold eye
  by_cases h : n = q
  · rw [if_pos h, if_pos h]
    show (((1#1 : BitVec 1).toNat : ℝ) : EReal) = 1
    simp
  · rw [if_neg h, if_neg h]
    show (((0#1 : BitVec 1).toNat : ℝ) : EReal) = 0
    simp

/-! ## The vector unit's block of M₀ -/

/-- Entry (p, q) of the block of M₀ a vector unit builds at block row `t`: σ of the block's entry, plus the
    identity's entry at row 128·t + p and column q. -/
theorem kernelInit_apply (t : ℕ) (ht : t < 64) (x : FVec Ideal ⟨2, ![128, 8192]⟩ .f32)
    (hi0 : (⟨2, ![128, 1]⟩ : Shape).Iotas .tc 32 [(0 : Fin 2)]) (hi1 : (⟨2, ![1, 8192]⟩ : Shape).Iotas .tc 32 [(1 : Fin 2)])
    (hb0 : (⟨2, ![128, 1]⟩ : Shape).Broadcasts ⟨2, ![128, 8192]⟩) (hb1 : (⟨2, ![1, 8192]⟩ : Shape).Broadcasts ⟨2, ![128, 8192]⟩)
    (p : Fin 128) (q : Fin 8192) :
    addf (logistic x) (select
        (cmpi .eq (broadcastTo ⟨2, ![128, 8192]⟩ (addi (iota .tc ⟨2, ![128, 1]⟩ 32 [(0 : Fin 2)] hi0)
            (broadcast ⟨2, ![128, 1]⟩ (Scalar.muli (BitVec.ofNat 32 t) 128#32))) hb0)
          (broadcastTo ⟨2, ![128, 8192]⟩ (iota .tc ⟨2, ![1, 8192]⟩ 32 [(1 : Fin 2)] hi1) hb1))
        (broadcast ⟨2, ![128, 8192]⟩ (Scalar.ofBits .f32 0x3F800000#32))
        (broadcast ⟨2, ![128, 8192]⟩ (Scalar.ofBits .f32 0x00000000#32))) (ix2 p q)
      = Ideal.logistic (x (ix2 p q)) + eye (t * 128 + p.val) q.val := by
  rw [addf_apply, select_apply, broadcast_apply, broadcast_apply]
  have hc : cmpi .eq (broadcastTo ⟨2, ![128, 8192]⟩ (addi (iota .tc ⟨2, ![128, 1]⟩ 32 [(0 : Fin 2)] hi0)
            (broadcast ⟨2, ![128, 1]⟩ (Scalar.muli (BitVec.ofNat 32 t) 128#32))) hb0)
          (broadcastTo ⟨2, ![128, 8192]⟩ (iota .tc ⟨2, ![1, 8192]⟩ 32 [(1 : Fin 2)] hi1) hb1) (ix2 p q)
        = if t * 128 + p.val = q.val then 1#1 else 0#1 := by
    show IntOp.cmpi .eq (broadcastTo ⟨2, ![128, 8192]⟩ _ hb0 (ix2 p q)) (broadcastTo ⟨2, ![128, 8192]⟩ _ hb1 (ix2 p q)) = _
    rw [ColumnForms.broadcastTo_a1_ac_apply, broadcastTo_1b_ab_apply]
    show IntOp.cmpi .eq (IntOp.addi (iota .tc ⟨2, ![128, 1]⟩ 32 [(0 : Fin 2)] hi0 (ix2 p (0 : Fin 1))) (Scalar.muli (BitVec.ofNat 32 t) 128#32))
      (iota .tc ⟨2, ![1, 8192]⟩ 32 [(1 : Fin 2)] hi1 (ix2 (0 : Fin 1) q)) = _
    rw [iota_single_apply, iota_single_apply]
    show IntOp.cmpi .eq (IntOp.addi (BitVec.ofNat 32 p.val) (Scalar.muli (BitVec.ofNat 32 t) 128#32)) (BitVec.ofNat 32 q.val) = _
    have hp := p.isLt
    have hq := q.isLt
    rw [rowWord, cmpi_eq_ofNat _ _ (by omega) (by omega)]
  rw [hc]
  exact congrArg (Ideal.logistic (x (ix2 p q)) + ·) (select_eye _ _)

/-! ## The host's M₀ -/

/-- Entry (p, q) of M₀ as a host program builds it. -/
theorem hostInit_apply (x : FVec Ideal Mat .f32) (hb : (⟨0, ![]⟩ : Shape).BroadcastsInDim Mat ![]) (p q : Fin 8192) :
    addf (Host.divf (broadcastInDim Mat ![] hb (constant ⟨0, ![]⟩ .f32 0x3F800000#32))
        (addf (broadcastInDim Mat ![] hb (constant ⟨0, ![]⟩ .f32 0x3F800000#32)) (Host.exp (Host.negf x))))
      (uitofp .f32 (cmpi .eq (addi (iotaInDim Mat 32 0) (broadcastInDim Mat ![] hb (constantI ⟨0, ![]⟩ 32 0#32)))
        (iotaInDim Mat 32 1))) (ix2 p q)
      = initM x (ix2 p q) := by
  rw [initM_apply, addf_apply, hostDivf_apply, addf_apply, broadcastInDim_scalar_apply, constant_apply, Ideal.ofBits_one_f32]
  have hc : (uitofp .f32 (cmpi .eq (addi (iotaInDim Mat 32 0) (broadcastInDim Mat ![] hb (constantI ⟨0, ![]⟩ 32 0#32)))
        (iotaInDim Mat 32 1)) : FVec Ideal Mat .f32) (ix2 p q) = eye p.val q.val := by
    show FloatOps.uitofp (F := Ideal) .f32 (IntOp.cmpi .eq (IntOp.addi (iotaInDim Mat 32 0 (ix2 p q))
      (broadcastInDim Mat ![] hb (constantI ⟨0, ![]⟩ 32 0#32) (ix2 p q))) (iotaInDim Mat 32 1 (ix2 p q))) = _
    rw [broadcastInDim_scalar_apply, constantI_apply, iotaInDim_apply, iotaInDim_apply]
    show FloatOps.uitofp (F := Ideal) .f32 (IntOp.cmpi .eq (IntOp.addi (BitVec.ofNat 32 p.val) 0#32) (BitVec.ofNat 32 q.val)) = _
    have hp := p.isLt
    have hq := q.isLt
    rw [addZeroWord, cmpi_eq_ofNat _ _ (by omega) (by omega), uitofp_eye]
  rw [hc]
  rfl

end Cert.Sinkhorn

end
-- ==== Proof.Region0.lean ====
/-
  Region 0 of the kernel's program: M₀ = σ(x) + I built block by block and row-normalised in the same pass.

  The region walks 64 grid points. Point t fetches rows 128·t … 128·t + 127 of the logits (all 8192 columns); the body
  takes the logistic of every entry, adds the identity's entry — it knows its block's first row from the grid
  coordinate, so entry (p, q) of the block gets 1 exactly when 128·t + p = q — and divides every entry of the
  resulting block of M₀ by its row's sum plus ε. A row lies whole inside the block, so that sum is M₀'s row sum. The
  block is written back to the same rows of the output array, and the 64 blocks tile it: the array ends as the row
  normalisation of M₀ of the logits as the region found them.
-/
import proofs.«157975_j85298050498979_1_alg».proof.Proof.KernelIdealFrame
import proofs.«157975_j85298050498979_1_alg».proof.Proof.Spec
import proofs.«157975_j85298050498979_1_alg».proof.Proof.LibNormForms
import proofs.«157975_j85298050498979_1_alg».proof.Proof.InitForms

set_option maxRecDepth 16384

noncomputable section

namespace Cert.KernelIdeal.Region0

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The block of M₀ the body builds from the block of logits it loaded, at the grid coordinates `i`. -/
def m0blk (i : grid0.Coords) (x : Vec Ideal S128x8192 .f32) : FVec Ideal S128x8192 .f32 :=
  addf (logistic x) (select
    (cmpi .eq (broadcastTo S128x8192 (addi (iota .tc S128x1 32 [0] iota_S128x1_d0_w32)
        (broadcast S128x1 (Scalar.muli (BitVec.ofNat 32 (i 0).val) 128#32))) broadcasts_S128x1_S128x8192)
      (broadcastTo S128x8192 (iota .tc S1x8192 32 [1] iota_S1x8192_d1_w32) broadcasts_S1x8192_S128x8192))
    (broadcast S128x8192 (Scalar.ofBits .f32 0x3F800000#32)) (broadcast S128x8192 (Scalar.ofBits .f32 0x00000000#32)))

/-- The value the body stores is the row normalisation, as a vector unit computes it, of that block of M₀. -/
theorem pay_eq (i : grid0.Coords) (x : Vec Ideal S128x8192 .f32) :
    k0_pay1 i x = divf (m0blk i x) (broadcastTo S128x8192
      (addf (shapeCast S128x1 (multiReduction .add [1] S128 (m0blk i x) 0x00000000#32 reduces_S128x8192_S128 (.inl rfl) rfl)
        shapeCasts_S128_S128x1) (broadcast S128x1 (Scalar.ofBits .f32 0x358637BD#32))) broadcasts_S128x1_S128x8192) := rfl

/-- Entry (p, k) of that block of M₀: σ of the logit, plus the identity's entry at row 128·t + p. -/
theorem m0blk_apply (i : grid0.Coords) (x : Vec Ideal S128x8192 .f32) (p : Fin 128) (k : Fin 8192) :
    m0blk i x (ix2 p k) = Ideal.logistic (x (ix2 p k)) + eye ((i 0).val * 128 + p.val) k.val :=
  kernelInit_apply (i 0).val (i 0).isLt x _ _ _ _ p k

/-- The value the body stores, at an entry of the block. -/
theorem pay_apply (i : grid0.Coords) (x : Vec Ideal S128x8192 .f32) (p : Fin 128) (q : Fin 8192) :
    k0_pay1 i x (ix2 p q) = Ideal.div (m0blk i x (ix2 p q)) ((∑ k : Fin 8192, m0blk i x (ix2 p k)) + eps) := by
  rw [pay_eq]
  exact kernelRow_apply (m0blk i x) 0x358637BD#32 _ _ _ _ _ p q

/-- Both windows' index maps send point t to block row t, block column 0; the body is told the coordinate t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ (grid0.coords t 0).val = t.val :=
  (by decide +kernel : ∀ t : Fin grid0.N, _)

/-- Point t's input block, at its literal type. -/
abbrev xblk (c : Dev nD) (t : Fin cfg0.N) : Vec Ideal S128x8192 .f32 := iblk0 V c 0 t

/-- Point t's input block is rows 128·t … 128·t + 127 of the logits. -/
theorem iblk_apply (c : Dev nD) (t : Fin cfg0.N) (p : Fin 128) (k : Fin 8192) (hr : t.val * 128 + p.val < 8192) :
    xblk V c t (ix2 p k) = V c main_arg0 (ix2 ⟨t.val * 128 + p.val, hr⟩ k) := by
  obtain ⟨e0, e1, -, -, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 8192 + 1 * k.val = k.val; rw [e1]; omega

/-- Point t's block of M₀ is rows 128·t … 128·t + 127 of M₀ of the logits. -/
theorem m0blk_eq (c : Dev nD) (t : Fin cfg0.N) (p : Fin 128) (k : Fin 8192) (hr : t.val * 128 + p.val < 8192) :
    m0blk (grid0.coords t) (xblk V c t) (ix2 p k) = initM (V c main_arg0) (ix2 ⟨t.val * 128 + p.val, hr⟩ k) := by
  obtain ⟨-, -, -, -, e4⟩ := idx_facts t
  rw [m0blk_apply, initM_apply, iblk_apply V c t p k hr, e4]

/-- What point t writes back is block t of the row normalisation of M₀ of the logits. -/
theorem flushed_eq (c : Dev nD) (t : Fin cfg0.N) :
    (dat0 V c).flushed 1 t = ((cfg0.win 1).blk t).view.read (Elt Ideal) (rowNorm (initM (V c main_arg0))) := by
  show (cfg0.win 1).cut (grid0.coords t) ((dat0 V c).after 1 t) = _
  rw [after0_1]
  unfold out0_1
  rw [View.canon_unit_zero hz]
  simp only [View.ld_unit_zero (S := S128x8192) hz]
  obtain ⟨-, -, e2, e3, -⟩ := idx_facts t
  have ht : t.val < 64 := t.isLt
  funext j
  obtain ⟨p, q, rfl⟩ : ∃ (p : Fin 128) (q : Fin 8192), j = ix2 p q := ⟨j 0, j 1, eq_ix2 j⟩
  have hp : p.val < 128 := p.isLt
  have hr : t.val * 128 + p.val < 8192 := by omega
  have hemb : ((cfg0.win 1).blk t).view.emb (ix2 p q) = ix2 ⟨t.val * 128 + p.val, hr⟩ q := by
    funext a; apply Fin.ext
    match a with
    | ⟨0, _⟩ => show win0_1.index t (0 : Fin 2) * 128 + 1 * p.val = t.val * 128 + p.val; rw [e2]; omega
    | ⟨1, _⟩ => show win0_1.index t (1 : Fin 2) * 8192 + 1 * q.val = q.val; rw [e3]; omega
  show k0_pay1 (grid0.coords t) (xblk V c t) (ix2 p q)
    = rowNorm (initM (V c main_arg0)) (((cfg0.win 1).blk t).view.emb (ix2 p q))
  refine (pay_apply (grid0.coords t) (xblk V c t) p q).trans ?_
  rw [hemb, rowNorm_apply]
  have hs : (∑ k : Fin 8192, m0blk (grid0.coords t) (xblk V c t) (ix2 p k))
      = rowSum (initM (V c main_arg0)) ⟨t.val * 128 + p.val, hr⟩ :=
    Finset.sum_congr rfl fun k _ => m0blk_eq V c t p k hr
  rw [hs, m0blk_eq V c t p q hr]

/-- An index of the output array lies in point t's block iff each coordinate lies in the block's range. -/
theorem mem_blk (t : Fin cfg0.N) (i : S8192x8192.Idx) :
    i ∈ ((cfg0.win 1).blk t).view.set ↔ ∀ a : Fin 2, win0_1.index t a * S128x8192.size a ≤ (i a).val
      ∧ (i a).val < win0_1.index t a * S128x8192.size a + S128x8192.size a := by
  show i ∈ ((View.whole main_v0).slice (win0_1.rect t)).set ↔ _
  rw [View.set_slice_whole, Rect.mem_set_unit]
  exact Iff.rfl

/-- Every index of the output array is in some point's block: row r is in block r / 128. -/
theorem cover (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  have hlt : (i 0).val / 128 < 64 := by omega
  obtain ⟨-, -, e2, e3, -⟩ := idx_facts ⟨(i 0).val / 128, hlt⟩
  refine ⟨⟨(i 0).val / 128, hlt⟩, flush0_1 _, ?_⟩
  rw [mem_blk]
  intro a
  match a with
  | ⟨0, _⟩ =>
    show win0_1.index ⟨(i 0).val / 128, hlt⟩ (0 : Fin 2) * 128 ≤ (i 0).val
      ∧ (i 0).val < win0_1.index ⟨(i 0).val / 128, hlt⟩ (0 : Fin 2) * 128 + 128
    rw [e2]; show (i 0).val / 128 * 128 ≤ (i 0).val ∧ (i 0).val < (i 0).val / 128 * 128 + 128; omega
  | ⟨1, _⟩ =>
    show win0_1.index ⟨(i 0).val / 128, hlt⟩ (1 : Fin 2) * 8192 ≤ (i 1).val
      ∧ (i 1).val < win0_1.index ⟨(i 0).val / 128, hlt⟩ (1 : Fin 2) * 8192 + 8192
    rw [e3]; omega

/-- The output array when the region ends: the row normalisation of M₀ of the logits as the region found them. -/
theorem arr_eq (c : Dev nD) : (dat0 V c).arrAt 1 cfg0.N = rowNorm (initM (V c main_arg0)) :=
  (dat0 V c).arrAt_eq_of_cover 1 (rowNorm (initM (V c main_arg0))) (fun t _ => flushed_eq V c t) cover

end Cert.KernelIdeal.Region0

end
-- ==== Proof.Region1.lean ====
/-
  Region 1 of the kernel's program, a column normalisation: what its output array holds when the region ends.

  The region walks 64 grid points. Point t fetches columns 128·t … 128·t + 127 of the input array (all 8192 rows),
  the body divides every entry of that block by its column's sum plus ε — a column lies whole inside the block, so the
  sum is the array's column sum — and the block is written back to the same columns of the output array. The 64 blocks
  tile the array, so it ends as the column normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region1

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its column's sum plus ε. -/
theorem pay_apply (x : Vec Ideal S8192x128 .f32) (p : Fin 8192) (q : Fin 128) :
    k1_pay1 x (ix2 p q) = Ideal.div (x (ix2 p q)) ((∑ k : Fin 8192, x (ix2 k q)) + eps) := by
  unfold k1_pay1
  rw [shapeCast_self]
  exact kernelCol_apply x 0x358637BD#32 _ _ _ _ _ p q

/-- Both windows' index maps send point t to block row 0, block column t. -/
theorem idx_facts : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, _)

/-- Point t's input block, at its literal type. -/
abbrev xblk (c : Dev nD) (t : Fin cfg1.N) : Vec Ideal S8192x128 .f32 := iblk1 V c 0 t

/-- Point t's input block is columns 128·t … 128·t + 127 of the array the region reads. -/
theorem iblk_apply (c : Dev nD) (t : Fin cfg1.N) (k : Fin 8192) (q : Fin 128) (hr : t.val * 128 + q.val < 8192) :
    xblk V c t (ix2 k q) = V c main_v0 (ix2 k ⟨t.val * 128 + q.val, hr⟩) := by
  obtain ⟨e0, e1, -, -⟩ := idx_facts t
  show V c main_v0 (((cfg1.win 0).blk t).view.emb (ix2 k q)) = _
  refine congrArg (V c main_v0) (funext fun a => Fin.ext ?_)
  match a with
  | ⟨0, _⟩ => show win1_0.index t (0 : Fin 2) * 8192 + 1 * k.val = k.val; rw [e0]; omega
  | ⟨1, _⟩ => show win1_0.index t (1 : Fin 2) * 128 + 1 * q.val = t.val * 128 + q.val; rw [e1]; omega

/-- What point t writes back is block t of the column normalisation of the input array. -/
theorem flushed_eq (c : Dev nD) (t : Fin cfg1.N) :
    (dat1 V c).flushed 1 t = ((cfg1.win 1).blk t).view.read (Elt Ideal) (colNorm (V c main_v0)) := by
  show (cfg1.win 1).cut (grid1.coords t) ((dat1 V c).after 1 t) = _
  rw [after1_1]
  unfold out1_1
  rw [View.canon_unit_zero hz]
  simp only [View.ld_unit_zero (S := S8192x128) hz]
  obtain ⟨-, -, e2, e3⟩ := idx_facts t
  have ht : t.val < 64 := t.isLt
  funext j
  obtain ⟨p, q, rfl⟩ : ∃ (p : Fin 8192) (q : Fin 128), j = ix2 p q := ⟨j 0, j 1, eq_ix2 j⟩
  have hq : q.val < 128 := q.isLt
  have hr : t.val * 128 + q.val < 8192 := by omega
  have hemb : ((cfg1.win 1).blk t).view.emb (ix2 p q) = ix2 p ⟨t.val * 128 + q.val, hr⟩ := by
    funext a; apply Fin.ext
    match a with
    | ⟨0, _⟩ => show win1_1.index t (0 : Fin 2) * 8192 + 1 * p.val = p.val; rw [e2]; omega
    | ⟨1, _⟩ => show win1_1.index t (1 : Fin 2) * 128 + 1 * q.val = t.val * 128 + q.val; rw [e3]; omega
  show k1_pay1 (xblk V c t) (ix2 p q) = colNorm (V c main_v0) (((cfg1.win 1).blk t).view.emb (ix2 p q))
  refine (pay_apply (xblk V c t) p q).trans ?_
  rw [hemb, colNorm_apply]
  have hs : (∑ k : Fin 8192, xblk V c t (ix2 k q)) = colSum (V c main_v0) ⟨t.val * 128 + q.val, hr⟩ :=
    Finset.sum_congr rfl fun k _ => iblk_apply V c t k q hr
  rw [hs, iblk_apply V c t p q hr]

/-- An index of the output array lies in point t's block iff each coordinate lies in the block's range. -/
theorem mem_blk (t : Fin cfg1.N) (i : S8192x8192.Idx) :
    i ∈ ((cfg1.win 1).blk t).view.set ↔ ∀ a : Fin 2, win1_1.index t a * S8192x128.size a ≤ (i a).val
      ∧ (i a).val < win1_1.index t a * S8192x128.size a + S8192x128.size a := by
  show i ∈ ((View.whole main_v1).slice (win1_1.rect t)).set ↔ _
  rw [View.set_slice_whole, Rect.mem_set_unit]
  exact Iff.rfl

/-- Every index of the output array is in some point's block: column s is in block s / 128. -/
theorem cover (i : S8192x8192.Idx) :
    ∃ t : Fin cfg1.N, (cfg1.win 1).flush t = true ∧ i ∈ ((cfg1.win 1).blk t).view.set := by
  have hi0 : (i 0).val < 8192 := (i 0).isLt
  have hi1 : (i 1).val < 8192 := (i 1).isLt
  have hlt : (i 1).val / 128 < 64 := by omega
  obtain ⟨-, -, e2, e3⟩ := idx_facts ⟨(i 1).val / 128, hlt⟩
  refine ⟨⟨(i 1).val / 128, hlt⟩, flush1_1 _, ?_⟩
  rw [mem_blk]
  intro a
  match a with
  | ⟨0, _⟩ =>
    show win1_1.index ⟨(i 1).val / 128, hlt⟩ (0 : Fin 2) * 8192 ≤ (i 0).val
      ∧ (i 0).val < win1_1.index ⟨(i 1).val / 128, hlt⟩ (0 : Fin 2) * 8192 + 8192
    rw [e2]; omega
  | ⟨1, _⟩ =>
    show win1_1.index ⟨(i 1).val / 128, hlt⟩ (1 : Fin 2) * 128 ≤ (i 1).val
      ∧ (i 1).val < win1_1.index ⟨(i 1).val / 128, hlt⟩ (1 : Fin 2) * 128 + 128
    rw [e3]; show (i 1).val / 128 * 128 ≤ (i 1).val ∧ (i 1).val < (i 1).val / 128 * 128 + 128; omega

/-- The output array when the region ends: the column normalisation of the input array as the region found it. -/
theorem arr_eq (c : Dev nD) : (dat1 V c).arrAt 1 cfg1.N = colNorm (V c main_v0) :=
  (dat1 V c).arrAt_eq_of_cover 1 (colNorm (V c main_v0)) (fun t _ => flushed_eq V c t) cover

end Cert.KernelIdeal.Region1

end
-- ==== Proof.Region2.lean ====
/-
  Region 2 of the kernel's program, a row normalisation: what its output array holds when the region ends.

  The region walks 64 grid points. Point t fetches rows 128·t … 128·t + 127 of the input array (all 8192 columns),
  the body divides every entry of that block by its row's sum plus ε — a row lies whole inside the block, so the sum
  is the array's row sum — and the block is written back to the same rows of the output array. The 64 blocks tile the
  array, so it ends as the row normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region2

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its row's sum plus ε. -/
theorem pay_apply (x : Vec Ideal S128x8192 .f32) (p : Fin 128) (q : Fin 8192) :
    k2_pay1 x (ix2 p q) = Ideal.div (x (ix2 p q)) ((∑ k : Fin 8192, x (ix2 p k)) + eps) := by
  unfold k2_pay1
  rw [shapeCast_self]
  exact kernelRow_apply x 0x358637BD#32 _ _ _ _ _ p q

/-- Both windows' index maps send point t to block row t, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Point t's input block, at its literal type. -/
abbrev xblk (c : Dev nD) (t : Fin cfg2.N) : Vec Ideal S128x8192 .f32 := iblk2 V c 0 t

/-- Point t's input block is rows 128·t … 128·t + 127 of the array the region reads. -/
theorem iblk_apply (c : Dev nD) (t : Fin cfg2.N) (p : Fin 128) (k : Fin 8192) (hr : t.val * 128 + p.val < 8192) :
    xblk V c t (ix2 p k) = V c main_v1 (ix2 ⟨t.val * 128 + p.val, hr⟩ k) := by
  obtain ⟨e0, e1, -, -⟩ := idx_facts t
  show V c main_v1 (((cfg2.win 0).blk t).view.emb (ix2 p k)) = _
  refine congrArg (V c main_v1) (funext fun a => Fin.ext ?_)
  match a with
  | ⟨0, _⟩ => show win2_0.index t (0 : Fin 2) * 128 + 1 * p.val = t.val * 128 + p.val; rw [e0]; omega
  | ⟨1, _⟩ => show win2_0.index t (1 : Fin 2) * 8192 + 1 * k.val = k.val; rw [e1]; omega

/-- What point t writes back is block t of the row normalisation of the input array. -/
theorem flushed_eq (c : Dev nD) (t : Fin cfg2.N) :
    (dat2 V c).flushed 1 t = ((cfg2.win 1).blk t).view.read (Elt Ideal) (rowNorm (V c main_v1)) := by
  show (cfg2.win 1).cut (grid2.coords t) ((dat2 V c).after 1 t) = _
  rw [after2_1]
  unfold out2_1
  rw [View.canon_unit_zero hz]
  simp only [View.ld_unit_zero (S := S128x8192) hz]
  obtain ⟨-, -, e2, e3⟩ := idx_facts t
  have ht : t.val < 64 := t.isLt
  funext j
  obtain ⟨p, q, rfl⟩ : ∃ (p : Fin 128) (q : Fin 8192), j = ix2 p q := ⟨j 0, j 1, eq_ix2 j⟩
  have hp : p.val < 128 := p.isLt
  have hr : t.val * 128 + p.val < 8192 := by omega
  have hemb : ((cfg2.win 1).blk t).view.emb (ix2 p q) = ix2 ⟨t.val * 128 + p.val, hr⟩ q := by
    funext a; apply Fin.ext
    match a with
    | ⟨0, _⟩ => show win2_1.index t (0 : Fin 2) * 128 + 1 * p.val = t.val * 128 + p.val; rw [e2]; omega
    | ⟨1, _⟩ => show win2_1.index t (1 : Fin 2) * 8192 + 1 * q.val = q.val; rw [e3]; omega
  show k2_pay1 (xblk V c t) (ix2 p q) = rowNorm (V c main_v1) (((cfg2.win 1).blk t).view.emb (ix2 p q))
  refine (pay_apply (xblk V c t) p q).trans ?_
  rw [hemb, rowNorm_apply]
  have hs : (∑ k : Fin 8192, xblk V c t (ix2 p k)) = rowSum (V c main_v1) ⟨t.val * 128 + p.val, hr⟩ :=
    Finset.sum_congr rfl fun k _ => iblk_apply V c t p k hr
  rw [hs, iblk_apply V c t p q hr]

/-- An index of the output array lies in point t's block iff each coordinate lies in the block's range. -/
theorem mem_blk (t : Fin cfg2.N) (i : S8192x8192.Idx) :
    i ∈ ((cfg2.win 1).blk t).view.set ↔ ∀ a : Fin 2, win2_1.index t a * S128x8192.size a ≤ (i a).val
      ∧ (i a).val < win2_1.index t a * S128x8192.size a + S128x8192.size a := by
  show i ∈ ((View.whole main_v2).slice (win2_1.rect t)).set ↔ _
  rw [View.set_slice_whole, Rect.mem_set_unit]
  exact Iff.rfl

/-- Every index of the output array is in some point's block: row r is in block r / 128. -/
theorem cover (i : S8192x8192.Idx) :
    ∃ t : Fin cfg2.N, (cfg2.win 1).flush t = true ∧ i ∈ ((cfg2.win 1).blk t).view.set := by
  have hi0 : (i 0).val < 8192 := (i 0).isLt
  have hi1 : (i 1).val < 8192 := (i 1).isLt
  have hlt : (i 0).val / 128 < 64 := by omega
  obtain ⟨-, -, e2, e3⟩ := idx_facts ⟨(i 0).val / 128, hlt⟩
  refine ⟨⟨(i 0).val / 128, hlt⟩, flush2_1 _, ?_⟩
  rw [mem_blk]
  intro a
  match a with
  | ⟨0, _⟩ =>
    show win2_1.index ⟨(i 0).val / 128, hlt⟩ (0 : Fin 2) * 128 ≤ (i 0).val
      ∧ (i 0).val < win2_1.index ⟨(i 0).val / 128, hlt⟩ (0 : Fin 2) * 128 + 128
    rw [e2]; show (i 0).val / 128 * 128 ≤ (i 0).val ∧ (i 0).val < (i 0).val / 128 * 128 + 128; omega
  | ⟨1, _⟩ =>
    show win2_1.index ⟨(i 0).val / 128, hlt⟩ (1 : Fin 2) * 8192 ≤ (i 1).val
      ∧ (i 1).val < win2_1.index ⟨(i 0).val / 128, hlt⟩ (1 : Fin 2) * 8192 + 8192
    rw [e3]; omega

/-- The output array when the region ends: the row normalisation of the input array as the region found it. -/
theorem arr_eq (c : Dev nD) : (dat2 V c).arrAt 1 cfg2.N = rowNorm (V c main_v1) :=
  (dat2 V c).arrAt_eq_of_cover 1 (rowNorm (V c main_v1)) (fun t _ => flushed_eq V c t) cover

end Cert.KernelIdeal.Region2

end
-- ==== Proof.Region3.lean ====
/-
  Region 3 of the kernel's program, a column normalisation: what its output array holds when the region ends.

  The region walks 64 grid points. Point t fetches columns 128·t … 128·t + 127 of the input array (all 8192 rows),
  the body divides every entry of that block by its column's sum plus ε — a column lies whole inside the block, so the
  sum is the array's column sum — and the block is written back to the same columns of the output array. The 64 blocks
  tile the array, so it ends as the column normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region3

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its column's sum plus ε. -/
theorem pay_apply (x : Vec Ideal S8192x128 .f32) (p : Fin 8192) (q : Fin 128) :
    k3_pay1 x (ix2 p q) = Ideal.div (x (ix2 p q)) ((∑ k : Fin 8192, x (ix2 k q)) + eps) := by
  unfold k3_pay1
  rw [shapeCast_self]
  exact kernelCol_apply x 0x358637BD#32 _ _ _ _ _ p q

/-- Both windows' index maps send point t to block row 0, block column t. -/
theorem idx_facts : ∀ t : Fin cfg3.N, win3_0.index t (0 : Fin 2) = 0 ∧ win3_0.index t (1 : Fin 2) = t.val
    ∧ win3_1.index t (0 : Fin 2) = 0 ∧ win3_1.index t (1 : Fin 2) = t.val :=
  (by decide +kernel : ∀ t : Fin grid3.N, _)

/-- Point t's input block, at its literal type. -/
abbrev xblk (c : Dev nD) (t : Fin cfg3.N) : Vec Ideal S8192x128 .f32 := iblk3 V c 0 t

/-- Point t's input block is columns 128·t … 128·t + 127 of the array the region reads. -/
theorem iblk_apply (c : Dev nD) (t : Fin cfg3.N) (k : Fin 8192) (q : Fin 128) (hr : t.val * 128 + q.val < 8192) :
    xblk V c t (ix2 k q) = V c main_v2 (ix2 k ⟨t.val * 128 + q.val, hr⟩) := by
  obtain ⟨e0, e1, -, -⟩ := idx_facts t
  show V c main_v2 (((cfg3.win 0).blk t).view.emb (ix2 k q)) = _
  refine congrArg (V c main_v2) (funext fun a => Fin.ext ?_)
  match a with
  | ⟨0, _⟩ => show win3_0.index t (0 : Fin 2) * 8192 + 1 * k.val = k.val; rw [e0]; omega
  | ⟨1, _⟩ => show win3_0.index t (1 : Fin 2) * 128 + 1 * q.val = t.val * 128 + q.val; rw [e1]; omega

/-- What point t writes back is block t of the column normalisation of the input array. -/
theorem flushed_eq (c : Dev nD) (t : Fin cfg3.N) :
    (dat3 V c).flushed 1 t = ((cfg3.win 1).blk t).view.read (Elt Ideal) (colNorm (V c main_v2)) := by
  show (cfg3.win 1).cut (grid3.coords t) ((dat3 V c).after 1 t) = _
  rw [after3_1]
  unfold out3_1
  rw [View.canon_unit_zero hz]
  simp only [View.ld_unit_zero (S := S8192x128) hz]
  obtain ⟨-, -, e2, e3⟩ := idx_facts t
  have ht : t.val < 64 := t.isLt
  funext j
  obtain ⟨p, q, rfl⟩ : ∃ (p : Fin 8192) (q : Fin 128), j = ix2 p q := ⟨j 0, j 1, eq_ix2 j⟩
  have hq : q.val < 128 := q.isLt
  have hr : t.val * 128 + q.val < 8192 := by omega
  have hemb : ((cfg3.win 1).blk t).view.emb (ix2 p q) = ix2 p ⟨t.val * 128 + q.val, hr⟩ := by
    funext a; apply Fin.ext
    match a with
    | ⟨0, _⟩ => show win3_1.index t (0 : Fin 2) * 8192 + 1 * p.val = p.val; rw [e2]; omega
    | ⟨1, _⟩ => show win3_1.index t (1 : Fin 2) * 128 + 1 * q.val = t.val * 128 + q.val; rw [e3]; omega
  show k3_pay1 (xblk V c t) (ix2 p q) = colNorm (V c main_v2) (((cfg3.win 1).blk t).view.emb (ix2 p q))
  refine (pay_apply (xblk V c t) p q).trans ?_
  rw [hemb, colNorm_apply]
  have hs : (∑ k : Fin 8192, xblk V c t (ix2 k q)) = colSum (V c main_v2) ⟨t.val * 128 + q.val, hr⟩ :=
    Finset.sum_congr rfl fun k _ => iblk_apply V c t k q hr
  rw [hs, iblk_apply V c t p q hr]

/-- An index of the output array lies in point t's block iff each coordinate lies in the block's range. -/
theorem mem_blk (t : Fin cfg3.N) (i : S8192x8192.Idx) :
    i ∈ ((cfg3.win 1).blk t).view.set ↔ ∀ a : Fin 2, win3_1.index t a * S8192x128.size a ≤ (i a).val
      ∧ (i a).val < win3_1.index t a * S8192x128.size a + S8192x128.size a := by
  show i ∈ ((View.whole main_v3).slice (win3_1.rect t)).set ↔ _
  rw [View.set_slice_whole, Rect.mem_set_unit]
  exact Iff.rfl

/-- Every index of the output array is in some point's block: column s is in block s / 128. -/
theorem cover (i : S8192x8192.Idx) :
    ∃ t : Fin cfg3.N, (cfg3.win 1).flush t = true ∧ i ∈ ((cfg3.win 1).blk t).view.set := by
  have hi0 : (i 0).val < 8192 := (i 0).isLt
  have hi1 : (i 1).val < 8192 := (i 1).isLt
  have hlt : (i 1).val / 128 < 64 := by omega
  obtain ⟨-, -, e2, e3⟩ := idx_facts ⟨(i 1).val / 128, hlt⟩
  refine ⟨⟨(i 1).val / 128, hlt⟩, flush3_1 _, ?_⟩
  rw [mem_blk]
  intro a
  match a with
  | ⟨0, _⟩ =>
    show win3_1.index ⟨(i 1).val / 128, hlt⟩ (0 : Fin 2) * 8192 ≤ (i 0).val
      ∧ (i 0).val < win3_1.index ⟨(i 1).val / 128, hlt⟩ (0 : Fin 2) * 8192 + 8192
    rw [e2]; omega
  | ⟨1, _⟩ =>
    show win3_1.index ⟨(i 1).val / 128, hlt⟩ (1 : Fin 2) * 128 ≤ (i 1).val
      ∧ (i 1).val < win3_1.index ⟨(i 1).val / 128, hlt⟩ (1 : Fin 2) * 128 + 128
    rw [e3]; show (i 1).val / 128 * 128 ≤ (i 1).val ∧ (i 1).val < (i 1).val / 128 * 128 + 128; omega

/-- The output array when the region ends: the column normalisation of the input array as the region found it. -/
theorem arr_eq (c : Dev nD) : (dat3 V c).arrAt 1 cfg3.N = colNorm (V c main_v2) :=
  (dat3 V c).arrAt_eq_of_cover 1 (colNorm (V c main_v2)) (fun t _ => flushed_eq V c t) cover

end Cert.KernelIdeal.Region3

end
-- ==== Proof.Region4.lean ====
/-
  Region 4 of the kernel's program, a row normalisation: what its output array holds when the region ends.

  The region walks 64 grid points. Point t fetches rows 128·t … 128·t + 127 of the input array (all 8192 columns),
  the body divides every entry of that block by its row's sum plus ε — a row lies whole inside the block, so the sum
  is the array's row sum — and the block is written back to the same rows of the output array. The 64 blocks tile the
  array, so it ends as the row normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region4

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its row's sum plus ε. -/
theorem pay_apply (x : Vec Ideal S128x8192 .f32) (p : Fin 128) (q : Fin 8192) :
    k4_pay1 x (ix2 p q) = Ideal.div (x (ix2 p q)) ((∑ k : Fin 8192, x (ix2 p k)) + eps) := by
  unfold k4_pay1
  rw [shapeCast_self]
  exact kernelRow_apply x 0x358637BD#32 _ _ _ _ _ p q

/-- Both windows' index maps send point t to block row t, block column 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Point t's input block, at its literal type. -/
abbrev xblk (c : Dev nD) (t : Fin cfg4.N) : Vec Ideal S128x8192 .f32 := iblk4 V c 0 t

/-- Point t's input block is rows 128·t … 128·t + 127 of the array the region reads. -/
theorem iblk_apply (c : Dev nD) (t : Fin cfg4.N) (p : Fin 128) (k : Fin 8192) (hr : t.val * 128 + p.val < 8192) :
    xblk V c t (ix2 p k) = V c main_v3 (ix2 ⟨t.val * 128 + p.val, hr⟩ k) := by
  obtain ⟨e0, e1, -, -⟩ := idx_facts t
  show V c main_v3 (((cfg4.win 0).blk t).view.emb (ix2 p k)) = _
  refine congrArg (V c main_v3) (funext fun a => Fin.ext ?_)
  match a with
  | ⟨0, _⟩ => show win4_0.index t (0 : Fin 2) * 128 + 1 * p.val = t.val * 128 + p.val; rw [e0]; omega
  | ⟨1, _⟩ => show win4_0.index t (1 : Fin 2) * 8192 + 1 * k.val = k.val; rw [e1]; omega

/-- What point t writes back is block t of the row normalisation of the input array. -/
theorem flushed_eq (c : Dev nD) (t : Fin cfg4.N) :
    (dat4 V c).flushed 1 t = ((cfg4.win 1).blk t).view.read (Elt Ideal) (rowNorm (V c main_v3)) := by
  show (cfg4.win 1).cut (grid4.coords t) ((dat4 V c).after 1 t) = _
  rw [after4_1]
  unfold out4_1
  rw [View.canon_unit_zero hz]
  simp only [View.ld_unit_zero (S := S128x8192) hz]
  obtain ⟨-, -, e2, e3⟩ := idx_facts t
  have ht : t.val < 64 := t.isLt
  funext j
  obtain ⟨p, q, rfl⟩ : ∃ (p : Fin 128) (q : Fin 8192), j = ix2 p q := ⟨j 0, j 1, eq_ix2 j⟩
  have hp : p.val < 128 := p.isLt
  have hr : t.val * 128 + p.val < 8192 := by omega
  have hemb : ((cfg4.win 1).blk t).view.emb (ix2 p q) = ix2 ⟨t.val * 128 + p.val, hr⟩ q := by
    funext a; apply Fin.ext
    match a with
    | ⟨0, _⟩ => show win4_1.index t (0 : Fin 2) * 128 + 1 * p.val = t.val * 128 + p.val; rw [e2]; omega
    | ⟨1, _⟩ => show win4_1.index t (1 : Fin 2) * 8192 + 1 * q.val = q.val; rw [e3]; omega
  show k4_pay1 (xblk V c t) (ix2 p q) = rowNorm (V c main_v3) (((cfg4.win 1).blk t).view.emb (ix2 p q))
  refine (pay_apply (xblk V c t) p q).trans ?_
  rw [hemb, rowNorm_apply]
  have hs : (∑ k : Fin 8192, xblk V c t (ix2 p k)) = rowSum (V c main_v3) ⟨t.val * 128 + p.val, hr⟩ :=
    Finset.sum_congr rfl fun k _ => iblk_apply V c t p k hr
  rw [hs, iblk_apply V c t p q hr]

/-- An index of the output array lies in point t's block iff each coordinate lies in the block's range. -/
theorem mem_blk (t : Fin cfg4.N) (i : S8192x8192.Idx) :
    i ∈ ((cfg4.win 1).blk t).view.set ↔ ∀ a : Fin 2, win4_1.index t a * S128x8192.size a ≤ (i a).val
      ∧ (i a).val < win4_1.index t a * S128x8192.size a + S128x8192.size a := by
  show i ∈ ((View.whole main_v4).slice (win4_1.rect t)).set ↔ _
  rw [View.set_slice_whole, Rect.mem_set_unit]
  exact Iff.rfl

/-- Every index of the output array is in some point's block: row r is in block r / 128. -/
theorem cover (i : S8192x8192.Idx) :
    ∃ t : Fin cfg4.N, (cfg4.win 1).flush t = true ∧ i ∈ ((cfg4.win 1).blk t).view.set := by
  have hi0 : (i 0).val < 8192 := (i 0).isLt
  have hi1 : (i 1).val < 8192 := (i 1).isLt
  have hlt : (i 0).val / 128 < 64 := by omega
  obtain ⟨-, -, e2, e3⟩ := idx_facts ⟨(i 0).val / 128, hlt⟩
  refine ⟨⟨(i 0).val / 128, hlt⟩, flush4_1 _, ?_⟩
  rw [mem_blk]
  intro a
  match a with
  | ⟨0, _⟩ =>
    show win4_1.index ⟨(i 0).val / 128, hlt⟩ (0 : Fin 2) * 128 ≤ (i 0).val
      ∧ (i 0).val < win4_1.index ⟨(i 0).val / 128, hlt⟩ (0 : Fin 2) * 128 + 128
    rw [e2]; show (i 0).val / 128 * 128 ≤ (i 0).val ∧ (i 0).val < (i 0).val / 128 * 128 + 128; omega
  | ⟨1, _⟩ =>
    show win4_1.index ⟨(i 0).val / 128, hlt⟩ (1 : Fin 2) * 8192 ≤ (i 1).val
      ∧ (i 1).val < win4_1.index ⟨(i 0).val / 128, hlt⟩ (1 : Fin 2) * 8192 + 8192
    rw [e3]; omega

/-- The output array when the region ends: the row normalisation of the input array as the region found it. -/
theorem arr_eq (c : Dev nD) : (dat4 V c).arrAt 1 cfg4.N = rowNorm (V c main_v3) :=
  (dat4 V c).arrAt_eq_of_cover 1 (rowNorm (V c main_v3)) (fun t _ => flushed_eq V c t) cover

end Cert.KernelIdeal.Region4

end
-- ==== Proof.Region5.lean ====
/-
  Region 5 of the kernel's program, a column normalisation: what its output array holds when the region ends.

  The region walks 64 grid points. Point t fetches columns 128·t … 128·t + 127 of the input array (all 8192 rows),
  the body divides every entry of that block by its column's sum plus ε — a column lies whole inside the block, so the
  sum is the array's column sum — and the block is written back to the same columns of the output array. The 64 blocks
  tile the array, so it ends as the column normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region5

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its column's sum plus ε. -/
theorem pay_apply (x : Vec Ideal S8192x128 .f32) (p : Fin 8192) (q : Fin 128) :
    k5_pay1 x (ix2 p q) = Ideal.div (x (ix2 p q)) ((∑ k : Fin 8192, x (ix2 k q)) + eps) := by
  unfold k5_pay1
  rw [shapeCast_self]
  exact kernelCol_apply x 0x358637BD#32 _ _ _ _ _ p q

/-- Both windows' index maps send point t to block row 0, block column t. -/
theorem idx_facts : ∀ t : Fin cfg5.N, win5_0.index t (0 : Fin 2) = 0 ∧ win5_0.index t (1 : Fin 2) = t.val
    ∧ win5_1.index t (0 : Fin 2) = 0 ∧ win5_1.index t (1 : Fin 2) = t.val :=
  (by decide +kernel : ∀ t : Fin grid5.N, _)

/-- Point t's input block, at its literal type. -/
abbrev xblk (c : Dev nD) (t : Fin cfg5.N) : Vec Ideal S8192x128 .f32 := iblk5 V c 0 t

/-- Point t's input block is columns 128·t … 128·t + 127 of the array the region reads. -/
theorem iblk_apply (c : Dev nD) (t : Fin cfg5.N) (k : Fin 8192) (q : Fin 128) (hr : t.val * 128 + q.val < 8192) :
    xblk V c t (ix2 k q) = V c main_v4 (ix2 k ⟨t.val * 128 + q.val, hr⟩) := by
  obtain ⟨e0, e1, -, -⟩ := idx_facts t
  show V c main_v4 (((cfg5.win 0).blk t).view.emb (ix2 k q)) = _
  refine congrArg (V c main_v4) (funext fun a => Fin.ext ?_)
  match a with
  | ⟨0, _⟩ => show win5_0.index t (0 : Fin 2) * 8192 + 1 * k.val = k.val; rw [e0]; omega
  | ⟨1, _⟩ => show win5_0.index t (1 : Fin 2) * 128 + 1 * q.val = t.val * 128 + q.val; rw [e1]; omega

/-- What point t writes back is block t of the column normalisation of the input array. -/
theorem flushed_eq (c : Dev nD) (t : Fin cfg5.N) :
    (dat5 V c).flushed 1 t = ((cfg5.win 1).blk t).view.read (Elt Ideal) (colNorm (V c main_v4)) := by
  show (cfg5.win 1).cut (grid5.coords t) ((dat5 V c).after 1 t) = _
  rw [after5_1]
  unfold out5_1
  rw [View.canon_unit_zero hz]
  simp only [View.ld_unit_zero (S := S8192x128) hz]
  obtain ⟨-, -, e2, e3⟩ := idx_facts t
  have ht : t.val < 64 := t.isLt
  funext j
  obtain ⟨p, q, rfl⟩ : ∃ (p : Fin 8192) (q : Fin 128), j = ix2 p q := ⟨j 0, j 1, eq_ix2 j⟩
  have hq : q.val < 128 := q.isLt
  have hr : t.val * 128 + q.val < 8192 := by omega
  have hemb : ((cfg5.win 1).blk t).view.emb (ix2 p q) = ix2 p ⟨t.val * 128 + q.val, hr⟩ := by
    funext a; apply Fin.ext
    match a with
    | ⟨0, _⟩ => show win5_1.index t (0 : Fin 2) * 8192 + 1 * p.val = p.val; rw [e2]; omega
    | ⟨1, _⟩ => show win5_1.index t (1 : Fin 2) * 128 + 1 * q.val = t.val * 128 + q.val; rw [e3]; omega
  show k5_pay1 (xblk V c t) (ix2 p q) = colNorm (V c main_v4) (((cfg5.win 1).blk t).view.emb (ix2 p q))
  refine (pay_apply (xblk V c t) p q).trans ?_
  rw [hemb, colNorm_apply]
  have hs : (∑ k : Fin 8192, xblk V c t (ix2 k q)) = colSum (V c main_v4) ⟨t.val * 128 + q.val, hr⟩ :=
    Finset.sum_congr rfl fun k _ => iblk_apply V c t k q hr
  rw [hs, iblk_apply V c t p q hr]

/-- An index of the output array lies in point t's block iff each coordinate lies in the block's range. -/
theorem mem_blk (t : Fin cfg5.N) (i : S8192x8192.Idx) :
    i ∈ ((cfg5.win 1).blk t).view.set ↔ ∀ a : Fin 2, win5_1.index t a * S8192x128.size a ≤ (i a).val
      ∧ (i a).val < win5_1.index t a * S8192x128.size a + S8192x128.size a := by
  show i ∈ ((View.whole main_v5).slice (win5_1.rect t)).set ↔ _
  rw [View.set_slice_whole, Rect.mem_set_unit]
  exact Iff.rfl

/-- Every index of the output array is in some point's block: column s is in block s / 128. -/
theorem cover (i : S8192x8192.Idx) :
    ∃ t : Fin cfg5.N, (cfg5.win 1).flush t = true ∧ i ∈ ((cfg5.win 1).blk t).view.set := by
  have hi0 : (i 0).val < 8192 := (i 0).isLt
  have hi1 : (i 1).val < 8192 := (i 1).isLt
  have hlt : (i 1).val / 128 < 64 := by omega
  obtain ⟨-, -, e2, e3⟩ := idx_facts ⟨(i 1).val / 128, hlt⟩
  refine ⟨⟨(i 1).val / 128, hlt⟩, flush5_1 _, ?_⟩
  rw [mem_blk]
  intro a
  match a with
  | ⟨0, _⟩ =>
    show win5_1.index ⟨(i 1).val / 128, hlt⟩ (0 : Fin 2) * 8192 ≤ (i 0).val
      ∧ (i 0).val < win5_1.index ⟨(i 1).val / 128, hlt⟩ (0 : Fin 2) * 8192 + 8192
    rw [e2]; omega
  | ⟨1, _⟩ =>
    show win5_1.index ⟨(i 1).val / 128, hlt⟩ (1 : Fin 2) * 128 ≤ (i 1).val
      ∧ (i 1).val < win5_1.index ⟨(i 1).val / 128, hlt⟩ (1 : Fin 2) * 128 + 128
    rw [e3]; show (i 1).val / 128 * 128 ≤ (i 1).val ∧ (i 1).val < (i 1).val / 128 * 128 + 128; omega

/-- The output array when the region ends: the column normalisation of the input array as the region found it. -/
theorem arr_eq (c : Dev nD) : (dat5 V c).arrAt 1 cfg5.N = colNorm (V c main_v4) :=
  (dat5 V c).arrAt_eq_of_cover 1 (colNorm (V c main_v4)) (fun t _ => flushed_eq V c t) cover

end Cert.KernelIdeal.Region5

end
-- ==== Proof.Region6.lean ====
/-
  Region 6 of the kernel's program, a row normalisation: what its output array holds when the region ends.

  The region walks 64 grid points. Point t fetches rows 128·t … 128·t + 127 of the input array (all 8192 columns),
  the body divides every entry of that block by its row's sum plus ε — a row lies whole inside the block, so the sum
  is the array's row sum — and the block is written back to the same rows of the output array. The 64 blocks tile the
  array, so it ends as the row normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region6

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its row's sum plus ε. -/
theorem pay_apply (x : Vec Ideal S128x8192 .f32) (p : Fin 128) (q : Fin 8192) :
    k6_pay1 x (ix2 p q) = Ideal.div (x (ix2 p q)) ((∑ k : Fin 8192, x (ix2 p k)) + eps) := by
  unfold k6_pay1
  rw [shapeCast_self]
  exact kernelRow_apply x 0x358637BD#32 _ _ _ _ _ p q

/-- Both windows' index maps send point t to block row t, block column 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- Point t's input block, at its literal type. -/
abbrev xblk (c : Dev nD) (t : Fin cfg6.N) : Vec Ideal S128x8192 .f32 := iblk6 V c 0 t

/-- Point t's input block is rows 128·t … 128·t + 127 of the array the region reads. -/
theorem iblk_apply (c : Dev nD) (t : Fin cfg6.N) (p : Fin 128) (k : Fin 8192) (hr : t.val * 128 + p.val < 8192) :
    xblk V c t (ix2 p k) = V c main_v5 (ix2 ⟨t.val * 128 + p.val, hr⟩ k) := by
  obtain ⟨e0, e1, -, -⟩ := idx_facts t
  show V c main_v5 (((cfg6.win 0).blk t).view.emb (ix2 p k)) = _
  refine congrArg (V c main_v5) (funext fun a => Fin.ext ?_)
  match a with
  | ⟨0, _⟩ => show win6_0.index t (0 : Fin 2) * 128 + 1 * p.val = t.val * 128 + p.val; rw [e0]; omega
  | ⟨1, _⟩ => show win6_0.index t (1 : Fin 2) * 8192 + 1 * k.val = k.val; rw [e1]; omega

/-- What point t writes back is block t of the row normalisation of the input array. -/
theorem flushed_eq (c : Dev nD) (t : Fin cfg6.N) :
    (dat6 V c).flushed 1 t = ((cfg6.win 1).blk t).view.read (Elt Ideal) (rowNorm (V c main_v5)) := by
  show (cfg6.win 1).cut (grid6.coords t) ((dat6 V c).after 1 t) = _
  rw [after6_1]
  unfold out6_1
  rw [View.canon_unit_zero hz]
  simp only [View.ld_unit_zero (S := S128x8192) hz]
  obtain ⟨-, -, e2, e3⟩ := idx_facts t
  have ht : t.val < 64 := t.isLt
  funext j
  obtain ⟨p, q, rfl⟩ : ∃ (p : Fin 128) (q : Fin 8192), j = ix2 p q := ⟨j 0, j 1, eq_ix2 j⟩
  have hp : p.val < 128 := p.isLt
  have hr : t.val * 128 + p.val < 8192 := by omega
  have hemb : ((cfg6.win 1).blk t).view.emb (ix2 p q) = ix2 ⟨t.val * 128 + p.val, hr⟩ q := by
    funext a; apply Fin.ext
    match a with
    | ⟨0, _⟩ => show win6_1.index t (0 : Fin 2) * 128 + 1 * p.val = t.val * 128 + p.val; rw [e2]; omega
    | ⟨1, _⟩ => show win6_1.index t (1 : Fin 2) * 8192 + 1 * q.val = q.val; rw [e3]; omega
  show k6_pay1 (xblk V c t) (ix2 p q) = rowNorm (V c main_v5) (((cfg6.win 1).blk t).view.emb (ix2 p q))
  refine (pay_apply (xblk V c t) p q).trans ?_
  rw [hemb, rowNorm_apply]
  have hs : (∑ k : Fin 8192, xblk V c t (ix2 p k)) = rowSum (V c main_v5) ⟨t.val * 128 + p.val, hr⟩ :=
    Finset.sum_congr rfl fun k _ => iblk_apply V c t p k hr
  rw [hs, iblk_apply V c t p q hr]

/-- An index of the output array lies in point t's block iff each coordinate lies in the block's range. -/
theorem mem_blk (t : Fin cfg6.N) (i : S8192x8192.Idx) :
    i ∈ ((cfg6.win 1).blk t).view.set ↔ ∀ a : Fin 2, win6_1.index t a * S128x8192.size a ≤ (i a).val
      ∧ (i a).val < win6_1.index t a * S128x8192.size a + S128x8192.size a := by
  show i ∈ ((View.whole main_v6).slice (win6_1.rect t)).set ↔ _
  rw [View.set_slice_whole, Rect.mem_set_unit]
  exact Iff.rfl

/-- Every index of the output array is in some point's block: row r is in block r / 128. -/
theorem cover (i : S8192x8192.Idx) :
    ∃ t : Fin cfg6.N, (cfg6.win 1).flush t = true ∧ i ∈ ((cfg6.win 1).blk t).view.set := by
  have hi0 : (i 0).val < 8192 := (i 0).isLt
  have hi1 : (i 1).val < 8192 := (i 1).isLt
  have hlt : (i 0).val / 128 < 64 := by omega
  obtain ⟨-, -, e2, e3⟩ := idx_facts ⟨(i 0).val / 128, hlt⟩
  refine ⟨⟨(i 0).val / 128, hlt⟩, flush6_1 _, ?_⟩
  rw [mem_blk]
  intro a
  match a with
  | ⟨0, _⟩ =>
    show win6_1.index ⟨(i 0).val / 128, hlt⟩ (0 : Fin 2) * 128 ≤ (i 0).val
      ∧ (i 0).val < win6_1.index ⟨(i 0).val / 128, hlt⟩ (0 : Fin 2) * 128 + 128
    rw [e2]; show (i 0).val / 128 * 128 ≤ (i 0).val ∧ (i 0).val < (i 0).val / 128 * 128 + 128; omega
  | ⟨1, _⟩ =>
    show win6_1.index ⟨(i 0).val / 128, hlt⟩ (1 : Fin 2) * 8192 ≤ (i 1).val
      ∧ (i 1).val < win6_1.index ⟨(i 0).val / 128, hlt⟩ (1 : Fin 2) * 8192 + 8192
    rw [e3]; omega

/-- The output array when the region ends: the row normalisation of the input array as the region found it. -/
theorem arr_eq (c : Dev nD) : (dat6 V c).arrAt 1 cfg6.N = rowNorm (V c main_v5) :=
  (dat6 V c).arrAt_eq_of_cover 1 (rowNorm (V c main_v5)) (fun t _ => flushed_eq V c t) cover

end Cert.KernelIdeal.Region6

end
-- ==== Proof.Region7.lean ====
/-
  Region 7 of the kernel's program, a column normalisation: what its output array holds when the region ends.

  The region walks 64 grid points. Point t fetches columns 128·t … 128·t + 127 of the input array (all 8192 rows),
  the body divides every entry of that block by its column's sum plus ε — a column lies whole inside the block, so the
  sum is the array's column sum — and the block is written back to the same columns of the output array. The 64 blocks
  tile the array, so it ends as the column normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region7

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its column's sum plus ε. -/
theorem pay_apply (x : Vec Ideal S8192x128 .f32) (p : Fin 8192) (q : Fin 128) :
    k7_pay1 x (ix2 p q) = Ideal.div (x (ix2 p q)) ((∑ k : Fin 8192, x (ix2 k q)) + eps) := by
  unfold k7_pay1
  rw [shapeCast_self]
  exact kernelCol_apply x 0x358637BD#32 _ _ _ _ _ p q

/-- Both windows' index maps send point t to block row 0, block column t. -/
theorem idx_facts : ∀ t : Fin cfg7.N, win7_0.index t (0 : Fin 2) = 0 ∧ win7_0.index t (1 : Fin 2) = t.val
    ∧ win7_1.index t (0 : Fin 2) = 0 ∧ win7_1.index t (1 : Fin 2) = t.val :=
  (by decide +kernel : ∀ t : Fin grid7.N, _)

/-- Point t's input block, at its literal type. -/
abbrev xblk (c : Dev nD) (t : Fin cfg7.N) : Vec Ideal S8192x128 .f32 := iblk7 V c 0 t

/-- Point t's input block is columns 128·t … 128·t + 127 of the array the region reads. -/
theorem iblk_apply (c : Dev nD) (t : Fin cfg7.N) (k : Fin 8192) (q : Fin 128) (hr : t.val * 128 + q.val < 8192) :
    xblk V c t (ix2 k q) = V c main_v6 (ix2 k ⟨t.val * 128 + q.val, hr⟩) := by
  obtain ⟨e0, e1, -, -⟩ := idx_facts t
  show V c main_v6 (((cfg7.win 0).blk t).view.emb (ix2 k q)) = _
  refine congrArg (V c main_v6) (funext fun a => Fin.ext ?_)
  match a with
  | ⟨0, _⟩ => show win7_0.index t (0 : Fin 2) * 8192 + 1 * k.val = k.val; rw [e0]; omega
  | ⟨1, _⟩ => show win7_0.index t (1 : Fin 2) * 128 + 1 * q.val = t.val * 128 + q.val; rw [e1]; omega

/-- What point t writes back is block t of the column normalisation of the input array. -/
theorem flushed_eq (c : Dev nD) (t : Fin cfg7.N) :
    (dat7 V c).flushed 1 t = ((cfg7.win 1).blk t).view.read (Elt Ideal) (colNorm (V c main_v6)) := by
  show (cfg7.win 1).cut (grid7.coords t) ((dat7 V c).after 1 t) = _
  rw [after7_1]
  unfold out7_1
  rw [View.canon_unit_zero hz]
  simp only [View.ld_unit_zero (S := S8192x128) hz]
  obtain ⟨-, -, e2, e3⟩ := idx_facts t
  have ht : t.val < 64 := t.isLt
  funext j
  obtain ⟨p, q, rfl⟩ : ∃ (p : Fin 8192) (q : Fin 128), j = ix2 p q := ⟨j 0, j 1, eq_ix2 j⟩
  have hq : q.val < 128 := q.isLt
  have hr : t.val * 128 + q.val < 8192 := by omega
  have hemb : ((cfg7.win 1).blk t).view.emb (ix2 p q) = ix2 p ⟨t.val * 128 + q.val, hr⟩ := by
    funext a; apply Fin.ext
    match a with
    | ⟨0, _⟩ => show win7_1.index t (0 : Fin 2) * 8192 + 1 * p.val = p.val; rw [e2]; omega
    | ⟨1, _⟩ => show win7_1.index t (1 : Fin 2) * 128 + 1 * q.val = t.val * 128 + q.val; rw [e3]; omega
  show k7_pay1 (xblk V c t) (ix2 p q) = colNorm (V c main_v6) (((cfg7.win 1).blk t).view.emb (ix2 p q))
  refine (pay_apply (xblk V c t) p q).trans ?_
  rw [hemb, colNorm_apply]
  have hs : (∑ k : Fin 8192, xblk V c t (ix2 k q)) = colSum (V c main_v6) ⟨t.val * 128 + q.val, hr⟩ :=
    Finset.sum_congr rfl fun k _ => iblk_apply V c t k q hr
  rw [hs, iblk_apply V c t p q hr]

/-- An index of the output array lies in point t's block iff each coordinate lies in the block's range. -/
theorem mem_blk (t : Fin cfg7.N) (i : S8192x8192.Idx) :
    i ∈ ((cfg7.win 1).blk t).view.set ↔ ∀ a : Fin 2, win7_1.index t a * S8192x128.size a ≤ (i a).val
      ∧ (i a).val < win7_1.index t a * S8192x128.size a + S8192x128.size a := by
  show i ∈ ((View.whole main_v7).slice (win7_1.rect t)).set ↔ _
  rw [View.set_slice_whole, Rect.mem_set_unit]
  exact Iff.rfl

/-- Every index of the output array is in some point's block: column s is in block s / 128. -/
theorem cover (i : S8192x8192.Idx) :
    ∃ t : Fin cfg7.N, (cfg7.win 1).flush t = true ∧ i ∈ ((cfg7.win 1).blk t).view.set := by
  have hi0 : (i 0).val < 8192 := (i 0).isLt
  have hi1 : (i 1).val < 8192 := (i 1).isLt
  have hlt : (i 1).val / 128 < 64 := by omega
  obtain ⟨-, -, e2, e3⟩ := idx_facts ⟨(i 1).val / 128, hlt⟩
  refine ⟨⟨(i 1).val / 128, hlt⟩, flush7_1 _, ?_⟩
  rw [mem_blk]
  intro a
  match a with
  | ⟨0, _⟩ =>
    show win7_1.index ⟨(i 1).val / 128, hlt⟩ (0 : Fin 2) * 8192 ≤ (i 0).val
      ∧ (i 0).val < win7_1.index ⟨(i 1).val / 128, hlt⟩ (0 : Fin 2) * 8192 + 8192
    rw [e2]; omega
  | ⟨1, _⟩ =>
    show win7_1.index ⟨(i 1).val / 128, hlt⟩ (1 : Fin 2) * 128 ≤ (i 1).val
      ∧ (i 1).val < win7_1.index ⟨(i 1).val / 128, hlt⟩ (1 : Fin 2) * 128 + 128
    rw [e3]; show (i 1).val / 128 * 128 ≤ (i 1).val ∧ (i 1).val < (i 1).val / 128 * 128 + 128; omega

/-- The output array when the region ends: the column normalisation of the input array as the region found it. -/
theorem arr_eq (c : Dev nD) : (dat7 V c).arrAt 1 cfg7.N = colNorm (V c main_v6) :=
  (dat7 V c).arrAt_eq_of_cover 1 (colNorm (V c main_v6)) (fun t _ => flushed_eq V c t) cover

end Cert.KernelIdeal.Region7

end
-- ==== Proof.Region8.lean ====
/-
  Region 8 of the kernel's program, a row normalisation: what its output array holds when the region ends.

  The region walks 64 grid points. Point t fetches rows 128·t … 128·t + 127 of the input array (all 8192 columns),
  the body divides every entry of that block by its row's sum plus ε — a row lies whole inside the block, so the sum
  is the array's row sum — and the block is written back to the same rows of the output array. The 64 blocks tile the
  array, so it ends as the row normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region8

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its row's sum plus ε. -/
theorem pay_apply (x : Vec Ideal S128x8192 .f32) (p : Fin 128) (q : Fin 8192) :
    k8_pay1 x (ix2 p q) = Ideal.div (x (ix2 p q)) ((∑ k : Fin 8192, x (ix2 p k)) + eps) := by
  unfold k8_pay1
  rw [shapeCast_self]
  exact kernelRow_apply x 0x358637BD#32 _ _ _ _ _ p q

/-- Both windows' index maps send point t to block row t, block column 0. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)

/-- Point t's input block, at its literal type. -/
abbrev xblk (c : Dev nD) (t : Fin cfg8.N) : Vec Ideal S128x8192 .f32 := iblk8 V c 0 t

/-- Point t's input block is rows 128·t … 128·t + 127 of the array the region reads. -/
theorem iblk_apply (c : Dev nD) (t : Fin cfg8.N) (p : Fin 128) (k : Fin 8192) (hr : t.val * 128 + p.val < 8192) :
    xblk V c t (ix2 p k) = V c main_v7 (ix2 ⟨t.val * 128 + p.val, hr⟩ k) := by
  obtain ⟨e0, e1, -, -⟩ := idx_facts t
  show V c main_v7 (((cfg8.win 0).blk t).view.emb (ix2 p k)) = _
  refine congrArg (V c main_v7) (funext fun a => Fin.ext ?_)
  match a with
  | ⟨0, _⟩ => show win8_0.index t (0 : Fin 2) * 128 + 1 * p.val = t.val * 128 + p.val; rw [e0]; omega
  | ⟨1, _⟩ => show win8_0.index t (1 : Fin 2) * 8192 + 1 * k.val = k.val; rw [e1]; omega

/-- What point t writes back is block t of the row normalisation of the input array. -/
theorem flushed_eq (c : Dev nD) (t : Fin cfg8.N) :
    (dat8 V c).flushed 1 t = ((cfg8.win 1).blk t).view.read (Elt Ideal) (rowNorm (V c main_v7)) := by
  show (cfg8.win 1).cut (grid8.coords t) ((dat8 V c).after 1 t) = _
  rw [after8_1]
  unfold out8_1
  rw [View.canon_unit_zero hz]
  simp only [View.ld_unit_zero (S := S128x8192) hz]
  obtain ⟨-, -, e2, e3⟩ := idx_facts t
  have ht : t.val < 64 := t.isLt
  funext j
  obtain ⟨p, q, rfl⟩ : ∃ (p : Fin 128) (q : Fin 8192), j = ix2 p q := ⟨j 0, j 1, eq_ix2 j⟩
  have hp : p.val < 128 := p.isLt
  have hr : t.val * 128 + p.val < 8192 := by omega
  have hemb : ((cfg8.win 1).blk t).view.emb (ix2 p q) = ix2 ⟨t.val * 128 + p.val, hr⟩ q := by
    funext a; apply Fin.ext
    match a with
    | ⟨0, _⟩ => show win8_1.index t (0 : Fin 2) * 128 + 1 * p.val = t.val * 128 + p.val; rw [e2]; omega
    | ⟨1, _⟩ => show win8_1.index t (1 : Fin 2) * 8192 + 1 * q.val = q.val; rw [e3]; omega
  show k8_pay1 (xblk V c t) (ix2 p q) = rowNorm (V c main_v7) (((cfg8.win 1).blk t).view.emb (ix2 p q))
  refine (pay_apply (xblk V c t) p q).trans ?_
  rw [hemb, rowNorm_apply]
  have hs : (∑ k : Fin 8192, xblk V c t (ix2 p k)) = rowSum (V c main_v7) ⟨t.val * 128 + p.val, hr⟩ :=
    Finset.sum_congr rfl fun k _ => iblk_apply V c t p k hr
  rw [hs, iblk_apply V c t p q hr]

/-- An index of the output array lies in point t's block iff each coordinate lies in the block's range. -/
theorem mem_blk (t : Fin cfg8.N) (i : S8192x8192.Idx) :
    i ∈ ((cfg8.win 1).blk t).view.set ↔ ∀ a : Fin 2, win8_1.index t a * S128x8192.size a ≤ (i a).val
      ∧ (i a).val < win8_1.index t a * S128x8192.size a + S128x8192.size a := by
  show i ∈ ((View.whole main_v8).slice (win8_1.rect t)).set ↔ _
  rw [View.set_slice_whole, Rect.mem_set_unit]
  exact Iff.rfl

/-- Every index of the output array is in some point's block: row r is in block r / 128. -/
theorem cover (i : S8192x8192.Idx) :
    ∃ t : Fin cfg8.N, (cfg8.win 1).flush t = true ∧ i ∈ ((cfg8.win 1).blk t).view.set := by
  have hi0 : (i 0).val < 8192 := (i 0).isLt
  have hi1 : (i 1).val < 8192 := (i 1).isLt
  have hlt : (i 0).val / 128 < 64 := by omega
  obtain ⟨-, -, e2, e3⟩ := idx_facts ⟨(i 0).val / 128, hlt⟩
  refine ⟨⟨(i 0).val / 128, hlt⟩, flush8_1 _, ?_⟩
  rw [mem_blk]
  intro a
  match a with
  | ⟨0, _⟩ =>
    show win8_1.index ⟨(i 0).val / 128, hlt⟩ (0 : Fin 2) * 128 ≤ (i 0).val
      ∧ (i 0).val < win8_1.index ⟨(i 0).val / 128, hlt⟩ (0 : Fin 2) * 128 + 128
    rw [e2]; show (i 0).val / 128 * 128 ≤ (i 0).val ∧ (i 0).val < (i 0).val / 128 * 128 + 128; omega
  | ⟨1, _⟩ =>
    show win8_1.index ⟨(i 0).val / 128, hlt⟩ (1 : Fin 2) * 8192 ≤ (i 1).val
      ∧ (i 1).val < win8_1.index ⟨(i 0).val / 128, hlt⟩ (1 : Fin 2) * 8192 + 8192
    rw [e3]; omega

/-- The output array when the region ends: the row normalisation of the input array as the region found it. -/
theorem arr_eq (c : Dev nD) : (dat8 V c).arrAt 1 cfg8.N = rowNorm (V c main_v7) :=
  (dat8 V c).arrAt_eq_of_cover 1 (rowNorm (V c main_v7)) (fun t _ => flushed_eq V c t) cover

end Cert.KernelIdeal.Region8

end
-- ==== Proof.Region9.lean ====
/-
  Region 9 of the kernel's program, a column normalisation: what its output array holds when the region ends.

  The region walks 64 grid points. Point t fetches columns 128·t … 128·t + 127 of the input array (all 8192 rows),
  the body divides every entry of that block by its column's sum plus ε — a column lies whole inside the block, so the
  sum is the array's column sum — and the block is written back to the same columns of the output array. The 64 blocks
  tile the array, so it ends as the column normalisation of the input array as the region found it.
-/
import proofs.«157975_j85298050498979_1_alg».proof.Proof.KernelIdealFrame
import proofs.«157975_j85298050498979_1_alg».proof.Proof.Spec
import proofs.«157975_j85298050498979_1_alg».proof.Proof.LibNormForms

set_option maxRecDepth 16384

noncomputable section

namespace Cert.KernelIdeal.Region9

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.NormForms Cert.Sinkhorn

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the block: the entry over its column's sum plus ε. -/
theorem pay_apply (x : Vec Ideal S8192x128 .f32) (p : Fin 8192) (q : Fin 128) :
    k9_pay1 x (ix2 p q) = Ideal.div (x (ix2 p q)) ((∑ k : Fin 8192, x (ix2 k q)) + eps) := by
  unfold k9_pay1
  rw [shapeCast_self]
  exact kernelCol_apply x 0x358637BD#32 _ _ _ _ _ p q

/-- Both windows' index maps send point t to block row 0, block column t. -/
theorem idx_facts : ∀ t : Fin cfg9.N, win9_0.index t (0 : Fin 2) = 0 ∧ win9_0.index t (1 : Fin 2) = t.val
    ∧ win9_1.index t (0 : Fin 2) = 0 ∧ win9_1.index t (1 : Fin 2) = t.val :=
  (by decide +kernel : ∀ t : Fin grid9.N, _)

/-- Point t's input block, at its literal type. -/
abbrev xblk (c : Dev nD) (t : Fin cfg9.N) : Vec Ideal S8192x128 .f32 := iblk9 V c 0 t

/-- Point t's input block is columns 128·t … 128·t + 127 of the array the region reads. -/
theorem iblk_apply (c : Dev nD) (t : Fin cfg9.N) (k : Fin 8192) (q : Fin 128) (hr : t.val * 128 + q.val < 8192) :
    xblk V c t (ix2 k q) = V c main_v8 (ix2 k ⟨t.val * 128 + q.val, hr⟩) := by
  obtain ⟨e0, e1, -, -⟩ := idx_facts t
  show V c main_v8 (((cfg9.win 0).blk t).view.emb (ix2 k q)) = _
  refine congrArg (V c main_v8) (funext fun a => Fin.ext ?_)
  match a with
  | ⟨0, _⟩ => show win9_0.index t (0 : Fin 2) * 8192 + 1 * k.val = k.val; rw [e0]; omega
  | ⟨1, _⟩ => show win9_0.index t (1 : Fin 2) * 128 + 1 * q.val = t.val * 128 + q.val; rw [e1]; omega

/-- What point t writes back is block t of the column normalisation of the input array. -/
theorem flushed_eq (c : Dev nD) (t : Fin cfg9.N) :
    (dat9 V c).flushed 1 t = ((cfg9.win 1).blk t).view.read (Elt Ideal) (colNorm (V c main_v8)) := by
  show (cfg9.win 1).cut (grid9.coords t) ((dat9 V c).after 1 t) = _
  rw [after9_1]
  unfold out9_1
  rw [View.canon_unit_zero hz]
  simp only [View.ld_unit_zero (S := S8192x128) hz]
  obtain ⟨-, -, e2, e3⟩ := idx_facts t
  have ht : t.val < 64 := t.isLt
  funext j
  obtain ⟨p, q, rfl⟩ : ∃ (p : Fin 8192) (q : Fin 128), j = ix2 p q := ⟨j 0, j 1, eq_ix2 j⟩
  have hq : q.val < 128 := q.isLt
  have hr : t.val * 128 + q.val < 8192 := by omega
  have hemb : ((cfg9.win 1).blk t).view.emb (ix2 p q) = ix2 p ⟨t.val * 128 + q.val, hr⟩ := by
    funext a; apply Fin.ext
    match a with
    | ⟨0, _⟩ => show win9_1.index t (0 : Fin 2) * 8192 + 1 * p.val = p.val; rw [e2]; omega
    | ⟨1, _⟩ => show win9_1.index t (1 : Fin 2) * 128 + 1 * q.val = t.val * 128 + q.val; rw [e3]; omega
  show k9_pay1 (xblk V c t) (ix2 p q) = colNorm (V c main_v8) (((cfg9.win 1).blk t).view.emb (ix2 p q))
  refine (pay_apply (xblk V c t) p q).trans ?_
  rw [hemb, colNorm_apply]
  have hs : (∑ k : Fin 8192, xblk V c t (ix2 k q)) = colSum (V c main_v8) ⟨t.val * 128 + q.val, hr⟩ :=
    Finset.sum_congr rfl fun k _ => iblk_apply V c t k q hr
  rw [hs, iblk_apply V c t p q hr]

/-- An index of the output array lies in point t's block iff each coordinate lies in the block's range. -/
theorem mem_blk (t : Fin cfg9.N) (i : S8192x8192.Idx) :
    i ∈ ((cfg9.win 1).blk t).view.set ↔ ∀ a : Fin 2, win9_1.index t a * S8192x128.size a ≤ (i a).val
      ∧ (i a).val < win9_1.index t a * S8192x128.size a + S8192x128.size a := by
  show i ∈ ((View.whole main_v9).slice (win9_1.rect t)).set ↔ _
  rw [View.set_slice_whole, Rect.mem_set_unit]
  exact Iff.rfl

/-- Every index of the output array is in some point's block: column s is in block s / 128. -/
theorem cover (i : S8192x8192.Idx) :
    ∃ t : Fin cfg9.N, (cfg9.win 1).flush t = true ∧ i ∈ ((cfg9.win 1).blk t).view.set := by
  have hi0 : (i 0).val < 8192 := (i 0).isLt
  have hi1 : (i 1).val < 8192 := (i 1).isLt
  have hlt : (i 1).val / 128 < 64 := by omega
  obtain ⟨-, -, e2, e3⟩ := idx_facts ⟨(i 1).val / 128, hlt⟩
  refine ⟨⟨(i 1).val / 128, hlt⟩, flush9_1 _, ?_⟩
  rw [mem_blk]
  intro a
  match a with
  | ⟨0, _⟩ =>
    show win9_1.index ⟨(i 1).val / 128, hlt⟩ (0 : Fin 2) * 8192 ≤ (i 0).val
      ∧ (i 0).val < win9_1.index ⟨(i 1).val / 128, hlt⟩ (0 : Fin 2) * 8192 + 8192
    rw [e2]; omega
  | ⟨1, _⟩ =>
    show win9_1.index ⟨(i 1).val / 128, hlt⟩ (1 : Fin 2) * 128 ≤ (i 1).val
      ∧ (i 1).val < win9_1.index ⟨(i 1).val / 128, hlt⟩ (1 : Fin 2) * 128 + 128
    rw [e3]; show (i 1).val / 128 * 128 ≤ (i 1).val ∧ (i 1).val < (i 1).val / 128 * 128 + 128; omega

/-- The output array when the region ends: the column normalisation of the input array as the region found it. -/
theorem arr_eq (c : Dev nD) : (dat9 V c).arrAt 1 cfg9.N = colNorm (V c main_v8) :=
  (dat9 V c).arrAt_eq_of_cover 1 (colNorm (V c main_v8)) (fun t _ => flushed_eq V c t) cover

end Cert.KernelIdeal.Region9

end
-- ==== Proof.KernelValue.lean ====
/-
  The kernel's program, run at the extended reals: its result array is the Sinkhorn mixer of the logits.

  The program is ten regions in a row, each reading the array the one before wrote: region 0 writes the row
  normalisation of M₀ = σ(x) + I, then regions 1, 3, 5, 7, 9 each write the column normalisation of what they read and
  regions 2, 4, 6, 8 the row normalisation. The frame run names the buffer contents at every boundary between regions;
  at each boundary the region's output array holds what its blocks wrote back, which the region's own module reads as
  one whole-array function of its input array. Composing the ten gives five rounds of (rows, then columns) from M₀.
-/
import proofs.«157975_j85298050498979_1_alg».proof.Proof.KernelIdealRun
import proofs.«157975_j85298050498979_1_alg».proof.Proof.Spec
import proofs.«157975_j85298050498979_1_alg».proof.Proof.Region0
import proofs.«157975_j85298050498979_1_alg».proof.Proof.Region1
import proofs.«157975_j85298050498979_1_alg».proof.Proof.Region2
import proofs.«157975_j85298050498979_1_alg».proof.Proof.Region3
import proofs.«157975_j85298050498979_1_alg».proof.Proof.Region4
import proofs.«157975_j85298050498979_1_alg».proof.Proof.Region5
import proofs.«157975_j85298050498979_1_alg».proof.Proof.Region6
import proofs.«157975_j85298050498979_1_alg».proof.Proof.Region7
import proofs.«157975_j85298050498979_1_alg».proof.Proof.Region8
import proofs.«157975_j85298050498979_1_alg».proof.Proof.Region9

set_option maxRecDepth 16384

noncomputable section

namespace Cert.KernelIdeal.MixerValue

open Cert.KernelIdeal Cert.KernelIdeal.Gen Cert.KernelIdeal.GenP Idealize.ShloMosaic Idealize.ShloMosaic.TcCoe Idealize.SL.Sem
open Cert.Sinkhorn

variable (m : (ℓ : Loc nD τ sig) → Buf (Elt Ideal) ℓ) (ρ : Dev nD → PrngReg)

/-- The logits as launched. -/
abbrev logits (c : Dev nD) : FVec Ideal Mat .f32 := m ((c : Thread nD τ).loc main_arg0)

/-- After region 0: the row normalisation of M₀. -/
theorem after0 (c : Dev nD) : V1 m ρ c main_v0 = rowNorm (initM (logits m c)) :=
  (W1_arr m ρ c 1).trans (Region0.arr_eq (V0 m ρ) c)

theorem after1 (c : Dev nD) : V2 m ρ c main_v1 = colNorm (V1 m ρ c main_v0) :=
  (W2_arr m ρ c 1).trans (Region1.arr_eq (V1 m ρ) c)

theorem after2 (c : Dev nD) : V3 m ρ c main_v2 = rowNorm (V2 m ρ c main_v1) :=
  (W3_arr m ρ c 1).trans (Region2.arr_eq (V2 m ρ) c)

theorem after3 (c : Dev nD) : V4 m ρ c main_v3 = colNorm (V3 m ρ c main_v2) :=
  (W4_arr m ρ c 1).trans (Region3.arr_eq (V3 m ρ) c)

theorem after4 (c : Dev nD) : V5 m ρ c main_v4 = rowNorm (V4 m ρ c main_v3) :=
  (W5_arr m ρ c 1).trans (Region4.arr_eq (V4 m ρ) c)

theorem after5 (c : Dev nD) : V6 m ρ c main_v5 = colNorm (V5 m ρ c main_v4) :=
  (W6_arr m ρ c 1).trans (Region5.arr_eq (V5 m ρ) c)

theorem after6 (c : Dev nD) : V7 m ρ c main_v6 = rowNorm (V6 m ρ c main_v5) :=
  (W7_arr m ρ c 1).trans (Region6.arr_eq (V6 m ρ) c)

theorem after7 (c : Dev nD) : V8 m ρ c main_v7 = colNorm (V7 m ρ c main_v6) :=
  (W8_arr m ρ c 1).trans (Region7.arr_eq (V7 m ρ) c)

theorem after8 (c : Dev nD) : V9 m ρ c main_v8 = rowNorm (V8 m ρ c main_v7) :=
  (W9_arr m ρ c 1).trans (Region8.arr_eq (V8 m ρ) c)

theorem after9 (c : Dev nD) : V10 m ρ c main_v9 = colNorm (V9 m ρ c main_v8) :=
  (W10_arr m ρ c 1).trans (Region9.arr_eq (V9 m ρ) c)

/-- The last boundary's contents at the result buffer: five rounds from M₀ of the logits. -/
theorem result (c : Dev nD) : W10 m ρ c (Proc.devRef .tc main_v9) = mixer (logits m c) := by
  show V10 m ρ c main_v9 = _
  rw [after9, after8, after7, after6, after5, after4, after3, after2, after1, after0]
  rfl

/-- Every weakly fair execution of the kernel's program ends with the result array at the mixer of the logits and
    the logits unchanged. -/
theorem run : θ_run defs (onTc (τ := τ) (main (F := Ideal))) ⟨m, fun _ => 0, ρ⟩ (fun r => ∀ c : Dev nD,
      r.2.mem ((c.tc : Thread nD τ).loc main_v9) = mixer (logits m c)
      ∧ r.2.mem ((c.tc : Thread nD τ).loc main_arg0) = m ((c.tc : Thread nD τ).loc main_arg0)) :=
  (θ_run defs _ _).mono (fun r h c => ⟨(h c).1.trans (result m ρ c), (h c).2⟩) (run_main_v9 m ρ)

end Cert.KernelIdeal.MixerValue

end
-- ==== Proof.RefValue.lean ====
/-
  The reference program, run at the extended reals: its result array is the Sinkhorn mixer of the logits.

  The reference is a straight line of host operations, and its generated run names the stages: M₀ first, then ten
  stages each dividing the stage before by its row sums plus ε or by its column sums plus ε, alternately. M₀ is
  spelt 1 / (1 + e^(-x)) plus the converted comparison of a row iota with a column iota; each normalisation is a
  reduce from zero, two broadcasts, an add of ε's broadcast and a divide. Read entry by entry each stage is the
  mixer's step of the stage before, so the last stage is the mixer of the logits.
-/
import proofs.«157975_j85298050498979_1_alg».proof.Proof.Gen.ReferenceIdeal.Run
import proofs.«157975_j85298050498979_1_alg».proof.Proof.Spec
import proofs.«157975_j85298050498979_1_alg».proof.Proof.LibNormForms
import proofs.«157975_j85298050498979_1_alg».proof.Proof.InitForms

set_option maxRecDepth 16384

noncomputable section

namespace Cert.ReferenceIdeal.MixerValue

open Cert.ReferenceIdeal Cert.ReferenceIdeal.Gen Cert.ReferenceIdeal.Value Idealize.ShloMosaic Idealize.ShloMosaic.TcCoe Idealize.SL.Sem
open Idealize.ShloMosaic.ValueIdx Idealize.ShloMosaic.NormForms Cert.Sinkhorn

/-- A row normalisation as the host spells it is the mixer's. -/
theorem hostRow_eq (x : FVec Ideal Mat .f32) :
    Host.divf x (broadcastInDim S8192x8192 ![0, 1] bcast_S8192x1_S8192x8192_0_1
      (addf (broadcastInDim S8192x1 ![0] bcast_S8192_S8192x1_0
          (Host.reduceAdd x (constant S_ .f32 0x00000000#32) reducesTo_S8192x8192_S8192_d1 h_S_))
        (broadcastInDim S8192x1 ![] bcast_S_S8192x1 (constant S_ .f32 0x358637BD#32)))) = rowNorm x := by
  funext i
  obtain ⟨p, q, rfl⟩ : ∃ (p q : Fin 8192), i = ix2 p q := ⟨i 0, i 1, eq_ix2 i⟩
  exact hostRow_apply x 0x358637BD#32 _ _ _ _ _ p q

/-- A column normalisation as the host spells it is the mixer's. -/
theorem hostCol_eq (x : FVec Ideal Mat .f32) :
    Host.divf x (broadcastInDim S8192x8192 ![0, 1] bcast_S1x8192_S8192x8192_0_1
      (addf (broadcastInDim S1x8192 ![1] bcast_S8192_S1x8192_1
          (Host.reduceAdd x (constant S_ .f32 0x00000000#32) reducesTo_S8192x8192_S8192_d0 h_S_))
        (broadcastInDim S1x8192 ![] bcast_S_S1x8192 (constant S_ .f32 0x358637BD#32)))) = colNorm x := by
  funext i
  obtain ⟨p, q, rfl⟩ : ∃ (p q : Fin 8192), i = ix2 p q := ⟨i 0, i 1, eq_ix2 i⟩
  exact hostCol_apply x 0x358637BD#32 _ _ _ _ _ p q

variable (W : Valuation τ sig (Elt Ideal))

/-- The logits as the run's valuation holds them. -/
abbrev logits : FVec Ideal Mat .f32 := W (Proc.devRef .tc main_arg0)

/-- The first named stage is M₀ of the logits. -/
theorem stage12 : res_main_v12 W = initM (logits W) := by
  funext i
  obtain ⟨p, q, rfl⟩ : ∃ (p q : Fin 8192), i = ix2 p q := ⟨i 0, i 1, eq_ix2 i⟩
  exact hostInit_apply (logits W) _ p q

theorem stage18 : res_main_v18 W = rowNorm (res_main_v12 W) := by unfold res_main_v18; exact hostRow_eq _
theorem stage24 : res_main_v24 W = colNorm (res_main_v18 W) := by unfold res_main_v24; exact hostCol_eq _
theorem stage30 : res_main_v30 W = rowNorm (res_main_v24 W) := by unfold res_main_v30; exact hostRow_eq _
theorem stage36 : res_main_v36 W = colNorm (res_main_v30 W) := by unfold res_main_v36; exact hostCol_eq _
theorem stage42 : res_main_v42 W = rowNorm (res_main_v36 W) := by unfold res_main_v42; exact hostRow_eq _
theorem stage48 : res_main_v48 W = colNorm (res_main_v42 W) := by unfold res_main_v48; exact hostCol_eq _
theorem stage54 : res_main_v54 W = rowNorm (res_main_v48 W) := by unfold res_main_v54; exact hostRow_eq _
theorem stage60 : res_main_v60 W = colNorm (res_main_v54 W) := by unfold res_main_v60; exact hostCol_eq _
theorem stage66 : res_main_v66 W = rowNorm (res_main_v60 W) := by unfold res_main_v66; exact hostRow_eq _

/-- The run's result term, one more column normalisation, is the mixer of the logits. -/
theorem result :
    Host.divf (res_main_v66 W) (broadcastInDim S8192x8192 ![0, 1] bcast_S1x8192_S8192x8192_0_1
      (addf (broadcastInDim S1x8192 ![1] bcast_S8192_S1x8192_1
          (Host.reduceAdd (res_main_v66 W) (constant S_ .f32 0x00000000#32) reducesTo_S8192x8192_S8192_d0 h_S_))
        (broadcastInDim S1x8192 ![] bcast_S_S1x8192 (constant S_ .f32 0x358637BD#32)))) = mixer (logits W) := by
  rw [hostCol_eq, stage66, stage60, stage54, stage48, stage42, stage36, stage30, stage24, stage18, stage12]
  rfl

end Cert.ReferenceIdeal.MixerValue

end
-- ==== Proof.lean ====
/-
  The kernel against its reference: a Sinkhorn mixer of an 8192 × 8192 matrix of logits.

  Both programs start from M₀ = σ(x) + I (the logistic function entry by entry, plus the identity matrix) and apply
  five rounds of a row normalisation — every entry over its row's sum plus ε — followed by a column normalisation.
  The reference does it with whole-array host operations. The kernel does it in ten passes over the matrix: the first
  builds M₀ and row-normalises it block by block (128 whole rows at a time), then column passes (128 whole columns at
  a time) and row passes alternate; a pass never splits a row or column it sums, so each pass is exactly one
  normalisation of the whole matrix. On the extended reals both results are the same function of the logits
  (Proof/Spec.lean's `mixer`), term by term: no algebraic law is used, and so neither is the finiteness of the inputs.

  The three frames: the two kernel programs' from the generated frame certificate (in a copy that binds the grid
  coordinate the first pass's payload reads), the reference's from its generated run. The idealisation rewrote nothing,
  so `preserves` has nothing to state.
-/
import proofs.«157975_j85298050498979_1_alg».proof.Defs
import proofs.«157975_j85298050498979_1_alg».proof.Proof.Gen.Kernel
import proofs.«157975_j85298050498979_1_alg».proof.Proof.Gen.KernelIdeal
import proofs.«157975_j85298050498979_1_alg».proof.Proof.Gen.ReferenceIdeal
import proofs.«157975_j85298050498979_1_alg».proof.Proof.Gen.Pre_finite_inputs
import proofs.«157975_j85298050498979_1_alg».proof.Proof.KernelFrame
import proofs.«157975_j85298050498979_1_alg».proof.Proof.KernelIdealFrame
import proofs.«157975_j85298050498979_1_alg».proof.Proof.KernelValue
import proofs.«157975_j85298050498979_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mixer of the logits in their result arrays; the logits agree. -/
theorem algebraic : Cert.algebraic_KernelIdeal_ReferenceIdeal := by
  intro m ρ m' ρ' _ hagree
  refine ⟨fun c => Cert.Sinkhorn.mixer (Cert.KernelIdeal.MixerValue.logits m c), Cert.KernelIdeal.MixerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.MixerValue.result]
  show Cert.Sinkhorn.mixer (m' ((c.tc : Thread Cert.ReferenceIdeal.nD Cert.ReferenceIdeal.τ).loc Cert.ReferenceIdeal.main_arg0)) = _
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
